-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S24x128x32000 : Shape := ⟨3, ![24, 128, 32000]⟩
abbrev S8x128 : Shape := ⟨2, ![8, 128]⟩
abbrev S_ : Shape := ⟨0, ![]⟩

class Facts : Prop where
  bcast_S_S24x128x32000 : S_.BroadcastsInDim S24x128x32000 (![] : Fin 0 → Fin S24x128x32000.rank)
  reducesTo_S24x128x32000_S_d0_1_2 : S24x128x32000.ReducesTo [0, 1, 2] S_
  h_S_ : 0 < S_.numel
  bcast_S_S8x128 : S_.BroadcastsInDim S8x128 (![] : Fin 0 → Fin S8x128.rank)
  reducesTo_S8x128_S_d0_1 : S8x128.ReducesTo [0, 1] S_

variable [Facts]

def fn {F : FTy → Type} [FloatOps F] (main_arg0 : FVec F S24x128x32000 .f32) (main_arg1 : IVec S8x128 32) : IVec S_ 1 :=
  let main_v0 : FVec F S24x128x32000 .f32 := Host.absf main_arg0
  let main_cst : FVec F S_ .f32 := constant S_ .f32 0x7F800000#32
  let main_v1 : FVec F S24x128x32000 .f32 := broadcastInDim S24x128x32000 ![] bcast_S_S24x128x32000 main_cst
  let main_v2 : IVec S24x128x32000 1 := cmpf .olt main_v0 main_v1
  let main_c : IVec S_ 1 := constantI S_ 1 1#1
  let main_v3 : IVec S_ 1 := (fun x v => Host.reduce IntOp.andi x v reducesTo_S24x128x32000_S_d0_1_2 h_S_) main_v2 main_c
  let main_c_0 : IVec S_ 32 := constantI S_ 32 0#32
  let main_v4 : IVec S8x128 32 := broadcastInDim S8x128 ![] bcast_S_S8x128 main_c_0
  let main_v5 : IVec S8x128 1 := cmpi .sge main_arg1 main_v4
  let main_c_1 : IVec S_ 32 := constantI S_ 32 32000#32
  let main_v6 : IVec S8x128 32 := broadcastInDim S8x128 ![] bcast_S_S8x128 main_c_1
  let main_v7 : IVec S8x128 1 := cmpi .slt main_arg1 main_v6
  let main_v8 : IVec S8x128 1 := andi main_v5 main_v7
  let main_c_2 : IVec S_ 1 := constantI S_ 1 1#1
  let main_v9 : IVec S_ 1 := (fun x v => Host.reduce IntOp.andi x v reducesTo_S8x128_S_d0_1 h_S_) main_v8 main_c_2
  let main_v10 : IVec S_ 1 := andi main_v3 main_v9
  main_v10
-- ==== Kernel.lean ====
abbrev S24x128x32000 : Shape := ⟨3, ![24, 128, 32000]⟩
abbrev S8x128 : Shape := ⟨2, ![8, 128]⟩
abbrev S_ : Shape := ⟨0, ![]⟩
abbrev S2x24x128 : Shape := ⟨3, ![2, 24, 128]⟩
abbrev S8x128x3200 : Shape := ⟨3, ![8, 128, 3200]⟩
abbrev S1x8x128 : Shape := ⟨3, ![1, 8, 128]⟩
abbrev S8x128x640 : Shape := ⟨3, ![8, 128, 640]⟩
abbrev S8x128x1 : Shape := ⟨3, ![8, 128, 1]⟩
abbrev S24x128 : Shape := ⟨2, ![24, 128]⟩
abbrev S16x128 : Shape := ⟨2, ![16, 128]⟩
abbrev S2x8x128 : Shape := ⟨3, ![2, 8, 128]⟩
abbrev S8 : Shape := ⟨1, ![8]⟩
abbrev S8x1 : Shape := ⟨2, ![8, 1]⟩

abbrev nBuf : Space → Nat
  | .hbm => 45
  | .vmem => 5
  | .smem => 0
  | _ => 0

abbrev bufTy : (tb : Table) → Fin (tcTables nBuf tb) → BufTy
  | .hbm, ⟨0, _⟩ => ⟨S24x128x32000, .f32⟩
  | .hbm, ⟨1, _⟩ => ⟨S8x128, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S8x128, .i32⟩
  | .hbm, ⟨6, _⟩ => ⟨S8x128, .i32⟩
  | .hbm, ⟨7, _⟩ => ⟨S_, .i32⟩
  | .hbm, ⟨8, _⟩ => ⟨S8x128, .i32⟩
  | .hbm, ⟨9, _⟩ => ⟨S8x128, .i32⟩
  | .hbm, ⟨10, _⟩ => ⟨S2x24x128, .f32⟩
  | .hbm, ⟨11, _⟩ => ⟨S_, .f32⟩
  | .hbm, ⟨12, _⟩ => ⟨S24x128, .f32⟩
  | .hbm, ⟨13, _⟩ => ⟨S8x128, .f32⟩
  | .hbm, ⟨14, _⟩ => ⟨S16x128, .f32⟩
  | .hbm, ⟨15, _⟩ => ⟨S2x8x128, .f32⟩
  | .hbm, ⟨16, _⟩ => ⟨S_, .f32⟩
  | .hbm, ⟨17, _⟩ => ⟨S8x128, .f32⟩
  | .hbm, ⟨18, _⟩ => ⟨S8x128, .f32⟩
  | .hbm, ⟨19, _⟩ => ⟨S8x128, .f32⟩
  | .hbm, ⟨20, _⟩ => ⟨S_, .f32⟩
  | .hbm, ⟨21, _⟩ => ⟨S8, .f32⟩
  | .hbm, ⟨22, _⟩ => ⟨S8x128, .f32⟩
  | .hbm, ⟨23, _⟩ => ⟨S8x128, .f32⟩
  | .hbm, ⟨24, _⟩ => ⟨S8x128, .f32⟩
  | .hbm, ⟨25, _⟩ => ⟨S_, .f32⟩
  | .hbm, ⟨26, _⟩ => ⟨S8, .f32⟩
  | .hbm, ⟨27, _⟩ => ⟨S8x1, .f32⟩
  | .hbm, ⟨28, _⟩ => ⟨S8, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .i1⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S8, .f32⟩
  | .hbm, ⟨39, _⟩ => ⟨S8, .f32⟩
  | .hbm, ⟨40, _⟩ => ⟨S8, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S8x128x3200, .f32⟩
  | .local _ .vmem, ⟨1, _⟩ => ⟨S8x128x3200, .f32⟩
  | .local _ .vmem, ⟨2, _⟩ => ⟨S8x128, .i32⟩
  | .local _ .vmem, ⟨3, _⟩ => ⟨S1x8x128, .f32⟩
  | .local _ .vmem, ⟨4, _⟩ => ⟨S1x8x128, .f32⟩
  | _, _ => ⟨S24x128x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 3, 5], ![false, false, false]⟩

@[reducible] def k0_t1_loop : Scf.Loop 32 :=
  let c0_i32_1 : BitVec 32 := 0#32
  let c5_i32_2 : BitVec 32 := 5#32
  let v7 : BitVec 32 := Scalar.addi c0_i32_1 c5_i32_2
  let c1_i32 : BitVec 32 := 1#32
  ⟨c0_i32_1, v7, c1_i32⟩
def k0_mult1 (k0_t1 : Fin k0_t1_loop.trips) : BitVec 32 :=
  let c0_i32_1 : BitVec 32 := 0#32
  let c1_i32 : BitVec 32 := 1#32
  let arg6 : BitVec 32 := Scf.iv c0_i32_1 c1_i32 k0_t1
  let c640_i32 : BitVec 32 := 640#32
  let v14 : BitVec 32 := Scalar.muli arg6 c640_i32
  v14
def k0_off1 (k0_t1 : Fin k0_t1_loop.trips) : Fin 3 → Nat :=
  let c0_11 : Index := 0#32
  let c0_12 : Index := 0#32
  let c0_i32_1 : BitVec 32 := 0#32
  let c1_i32 : BitVec 32 := 1#32
  let arg6 : BitVec 32 := Scf.iv c0_i32_1 c1_i32 k0_t1
  let c640_i32 : BitVec 32 := 640#32
  let v14 : BitVec 32 := Scalar.muli arg6 c640_i32
  let v15 : BitVec 32 := v14
  let v25 : Index := Scalar.indexCast v15
  ![0, 0, v25.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.muli arg0 c5_i32
  let v1 : BitVec 32 := Scalar.addi v0 arg2
  let c0_i32 : BitVec 32 := 0#32
  let c0_i32_0 : BitVec 32 := 0#32
  ![arg1.toNat, c0_i32.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S8x128x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S8x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S_S8x128 : S_.BroadcastsInDim S8x128 (![] : Fin 0 → Fin S8x128.rank)
  inb_S1x8x128_S1x8x128_0_0_0 : ∀ a, (![0, 0, 0] : Fin 3 → Nat) a + S1x8x128.size a ≤ S1x8x128.size a
  h_S1x8x128 : 0 < S1x8x128.numel
  iota_S8x128x640_d2_w32 : S8x128x640.Iotas .tc 32 [2]
  inb_S8x128_S8x128_0_0 : ∀ a, (![0, 0] : Fin 2 → Nat) a + S8x128.size a ≤ S8x128.size a
  h_S8x128 : 0 < S8x128.numel
  shapeCasts_S8x128_S8x128 : S8x128.ShapeCasts S8x128
  shapeCasts_S8x128_S8x128x1 : S8x128.ShapeCasts S8x128x1
  broadcasts_S8x128x1_S8x128x640 : S8x128x1.Broadcasts S8x128x640
  h_S8x128x640 : 0 < S8x128x640.numel
  reduces_S8x128x640_S8x128 : S8x128x640.Reduces [2] S8x128
  shapeCasts_S1x8x128_S1x8x128 : S1x8x128.ShapeCasts S1x8x128
  shapeCasts_S8x128_S1x8x128 : S8x128.ShapeCasts S1x8x128
  reducesTo_S2x24x128_S24x128_d0 : S2x24x128.ReducesTo [0] S24x128
  h_S_ : 0 < S_.numel
  slices_S24x128_S8x128_0_0 : S24x128.Slices ![0, 0] S8x128
  slices_S24x128_S16x128_8_0 : S24x128.Slices ![8, 0] S16x128
  shapeCasts_S16x128_S2x8x128 : S16x128.ShapeCasts S2x8x128
  reducesTo_S2x8x128_S8x128_d0 : S2x8x128.ReducesTo [0] S8x128
  reducesTo_S8x128_S8_d1 : S8x128.ReducesTo [1] S8
  slices_S8x128_S8x1_0_127 : S8x128.Slices ![0, 127] S8x1
  shapeCasts_S8x1_S8 : S8x1.ShapeCasts S8
  bcast_S_S8 : S_.BroadcastsInDim S8 (![] : Fin 0 → Fin S8.rank)
  reducesTo_S8_S_d0 : S8.ReducesTo [0] S_
  hrank0 : 0 < grid0.rank
  k0_t1_ok : k0_t1_loop.OK
  k0_mult1_dvd : ∀ k0_t1 : Fin k0_t1_loop.trips, 640 ∣ (k0_mult1 k0_t1).toNat
  k0_off1_inb : ∀ k0_t1 : Fin k0_t1_loop.trips, ∀ a, (k0_off1 k0_t1) a + S8x128x640.size a ≤ S8x128x3200.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x3200.size a ≤ S24x128x32000.size a
  hwx0_0 : ∀ i : grid0.Coords, EltTy.bits .f32 = 32 ∨ (Rect.block (s := S24x128x32000) S8x128x3200.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S8x128.size a
  hwx0_1 : ∀ i : grid0.Coords, EltTy.bits .i32 = 32 ∨ (Rect.block (s := S8x128) S8x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x24x128.size a
  hwx0_2 : ∀ i : grid0.Coords, EltTy.bits .f32 = 32 ∨ (Rect.block (s := S2x24x128) S1x8x128.size (cc0_transform_2 i) (hinb0_2 i)).WholeWords (EltTy.packing .f32)

variable [Facts₀]

abbrev win0_0 : Pipeline.Window sig grid0 :=
  Pipeline.Window.ofSpec (Memref.whole main_arg0) S8x128x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S24x128x32000 : Shape := ⟨3, ![24, 128, 32000]⟩
abbrev S8x128 : Shape := ⟨2, ![8, 128]⟩
abbrev S8x128x32000 : Shape := ⟨3, ![8, 128, 32000]⟩
abbrev S16x128x32000 : Shape := ⟨3, ![16, 128, 32000]⟩
abbrev S16 : Shape := ⟨1, ![16]⟩
abbrev S_ : Shape := ⟨0, ![]⟩
abbrev S16x1 : Shape := ⟨2, ![16, 1]⟩
abbrev S8x128x1 : Shape := ⟨3, ![8, 128, 1]⟩
abbrev S8x128x1x1 : Shape := ⟨4, ![8, 128, 1, 1]⟩
abbrev S1 : Shape := ⟨1, ![1]⟩
abbrev S1x1x1x1 : Shape := ⟨4, ![1, 1, 1, 1]⟩
abbrev S8 : Shape := ⟨1, ![8]⟩
abbrev S8x1 : Shape := ⟨2, ![8, 1]⟩

abbrev nBuf : Space → Nat
  | .hbm => 108
  | .vmem => 0
  | .smem => 0
  | _ => 0

abbrev bufTy : (tb : Table) → Fin (tcTables nBuf tb) → BufTy
  | .hbm, ⟨0, _⟩ => ⟨S24x128x32000, .f32⟩
  | .hbm, ⟨1, _⟩ => ⟨S8x128, .i32⟩
  | .hbm, ⟨2, _⟩ => ⟨S8x128x32000, .f32⟩
  | .hbm, ⟨3, _⟩ => ⟨S16x128x32000, .f32⟩
  | .hbm, ⟨4, _⟩ => ⟨S16, .i32⟩
  | .hbm, ⟨5, _⟩ => ⟨S_, .i32⟩
  | .hbm, ⟨6, _⟩ => ⟨S16, .i32⟩
  | .hbm, ⟨7, _⟩ => ⟨S16, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S16, .i32⟩
  | .hbm, ⟨15, _⟩ => ⟨S16, .i32⟩
  | .hbm, ⟨16, _⟩ => ⟨S_, .i32⟩
  | .hbm, ⟨17, _⟩ => ⟨S16, .i32⟩
  | .hbm, ⟨18, _⟩ => ⟨S16, .i1⟩
  | .hbm, ⟨19, _⟩ => ⟨S_, .i32⟩
  | .hbm, ⟨20, _⟩ => ⟨S16, .i32⟩
  | .hbm, ⟨21, _⟩ => ⟨S16, .i1⟩
  | .hbm, ⟨22, _⟩ => ⟨S_, .i32⟩
  | .hbm, ⟨23, _⟩ => ⟨S_, .i1⟩
  | .hbm, ⟨24, _⟩ => ⟨S16, .i1⟩
  | .hbm, ⟨25, _⟩ => ⟨S16, .i1⟩
  | .hbm, ⟨26, _⟩ => ⟨S16, .i1⟩
  | .hbm, ⟨27, _⟩ => ⟨S16, .i32⟩
  | .hbm, ⟨28, _⟩ => ⟨S16, .i32⟩
  | .hbm, ⟨29, _⟩ => ⟨S16, .i32⟩
  | .hbm, ⟨30, _⟩ => ⟨S_, .f32⟩
  | .hbm, ⟨31, _⟩ => ⟨S8x128x32000, .f32⟩
  | .hbm, ⟨32, _⟩ => ⟨S16x1, .i32⟩
  | .hbm, ⟨33, _⟩ => ⟨S8x128x32000, .f32⟩
  | .hbm, ⟨34, _⟩ => ⟨S8x128x1, .i32⟩
  | .hbm, ⟨35, _⟩ => ⟨S_, .i32⟩
  | .hbm, ⟨36, _⟩ => ⟨S8x128x1, .i32⟩
  | .hbm, ⟨37, _⟩ => ⟨S8x128x1, .i1⟩
  | .hbm, ⟨38, _⟩ => ⟨S_, .i32⟩
  | .hbm, ⟨39, _⟩ => ⟨S8x128x1, .i32⟩
  | .hbm, ⟨40, _⟩ => ⟨S8x128x1, .i32⟩
  | .hbm, ⟨41, _⟩ => ⟨S8x128x1, .i32⟩
  | .hbm, ⟨42, _⟩ => ⟨S8x128x1x1, .i32⟩
  | .hbm, ⟨43, _⟩ => ⟨S1, .i32⟩
  | .hbm, ⟨44, _⟩ => ⟨S_, .i32⟩
  | .hbm, ⟨45, _⟩ => ⟨S8x128x1x1, .i32⟩
  | .hbm, ⟨46, _⟩ => ⟨S8x128x1x1, .i1⟩
  | .hbm, ⟨47, _⟩ => ⟨S1x1x1x1, .i32⟩
  | .hbm, ⟨48, _⟩ => ⟨S8x128x1x1, .i32⟩
  | .hbm, ⟨49, _⟩ => ⟨S8x128x1x1, .i1⟩
  | .hbm, ⟨50, _⟩ => ⟨S8x128x1x1, .i1⟩
  | .hbm, ⟨51, _⟩ => ⟨S_, .i1⟩
  | .hbm, ⟨52, _⟩ => ⟨S8x128x1, .i1⟩
  | .hbm, ⟨53, _⟩ => ⟨S8x128x1, .f32⟩
  | .hbm, ⟨54, _⟩ => ⟨S_, .f32⟩
  | .hbm, ⟨55, _⟩ => ⟨S8x128x1, .f32⟩
  | .hbm, ⟨56, _⟩ => ⟨S8x128x1, .f32⟩
  | .hbm, ⟨57, _⟩ => ⟨S8x128, .f32⟩
  | .hbm, ⟨58, _⟩ => ⟨S_, .i32⟩
  | .hbm, ⟨59, _⟩ => ⟨S8x128x1, .i32⟩
  | .hbm, ⟨60, _⟩ => ⟨S8x128x1, .i1⟩
  | .hbm, ⟨61, _⟩ => ⟨S_, .i32⟩
  | .hbm, ⟨62, _⟩ => ⟨S8x128x1, .i32⟩
  | .hbm, ⟨63, _⟩ => ⟨S8x128x1, .i32⟩
  | .hbm, ⟨64, _⟩ => ⟨S8x128x1, .i32⟩
  | .hbm, ⟨65, _⟩ => ⟨S8x128x1x1, .i32⟩
  | .hbm, ⟨66, _⟩ => ⟨S1, .i32⟩
  | .hbm, ⟨67, _⟩ => ⟨S_, .i32⟩
  | .hbm, ⟨68, _⟩ => ⟨S8x128x1x1, .i32⟩
  | .hbm, ⟨69, _⟩ => ⟨S8x128x1x1, .i1⟩
  | .hbm, ⟨70, _⟩ => ⟨S1x1x1x1, .i32⟩
  | .hbm, ⟨71, _⟩ => ⟨S8x128x1x1, .i32⟩
  | .hbm, ⟨72, _⟩ => ⟨S8x128x1x1, .i1⟩
  | .hbm, ⟨73, _⟩ => ⟨S8x128x1x1, .i1⟩
  | .hbm, ⟨74, _⟩ => ⟨S_, .i1⟩
  | .hbm, ⟨75, _⟩ => ⟨S8x128x1, .i1⟩
  | .hbm, ⟨76, _⟩ => ⟨S8x128x1, .f32⟩
  | .hbm, ⟨77, _⟩ => ⟨S_, .f32⟩
  | .hbm, ⟨78, _⟩ => ⟨S8x128x1, .f32⟩
  | .hbm, ⟨79, _⟩ => ⟨S8x128x1, .f32⟩
  | .hbm, ⟨80, _⟩ => ⟨S8x128, .f32⟩
  | .hbm, ⟨81, _⟩ => ⟨S8x128, .f32⟩
  | .hbm, ⟨82, _⟩ => ⟨S8x128, .f32⟩
  | .hbm, ⟨83, _⟩ => ⟨S_, .f32⟩
  | .hbm, ⟨84, _⟩ => ⟨S8, .f32⟩
  | .hbm, ⟨85, _⟩ => ⟨S8x128, .f32⟩
  | .hbm, ⟨86, _⟩ => ⟨S8x128, .f32⟩
  | .hbm, ⟨87, _⟩ => ⟨S8x128, .f32⟩
  | .hbm, ⟨88, _⟩ => ⟨S_, .f32⟩
  | .hbm, ⟨89, _⟩ => ⟨S8, .f32⟩
  | .hbm, ⟨90, _⟩ => ⟨S8x1, .f32⟩
  | .hbm, ⟨91, _⟩ => ⟨S8, .f32⟩
  | .hbm, ⟨92, _⟩ => ⟨S8, .f32⟩
  | .hbm, ⟨93, _⟩ => ⟨S8, .f32⟩
  | .hbm, ⟨94, _⟩ => ⟨S_, .f32⟩
  | .hbm, ⟨95, _⟩ => ⟨S8, .f32⟩
  | .hbm, ⟨96, _⟩ => ⟨S8, .i1⟩
  | .hbm, ⟨97, _⟩ => ⟨S8, .f32⟩
  | .hbm, ⟨98, _⟩ => ⟨S_, .f32⟩
  | .hbm, ⟨99, _⟩ => ⟨S8, .f32⟩
  | .hbm, ⟨100, _⟩ => ⟨S8, .f32⟩
  | .hbm, ⟨101, _⟩ => ⟨S8, .f32⟩
  | .hbm, ⟨102, _⟩ => ⟨S8, .f32⟩
  | .hbm, ⟨103, _⟩ => ⟨S8, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | _, _ => ⟨S24x128x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v5 : Ref sig .tc := ⟨.hbm, 29, rfl⟩
abbrev main_cst : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_cst : Ref sig .tc := ⟨.hbm, 54, rfl⟩
abbrev main_call1_v14 : Ref sig .tc := ⟨.hbm, 55, rfl⟩
abbrev main_v10 : Ref sig .tc := ⟨.hbm, 56, rfl⟩
abbrev main_v11 : Ref sig .tc := ⟨.hbm, 57, rfl⟩
abbrev main_call2_c : Ref sig .tc := ⟨.hbm, 58, rfl⟩
abbrev main_call2_v0 : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_c_1 : Ref sig .tc := ⟨.hbm, 66, rfl⟩
abbrev main_call2_c_2 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_3 : Ref sig .tc := ⟨.hbm, 74, rfl⟩
abbrev main_call2_v12 : Ref sig .tc := ⟨.hbm, 75, rfl⟩
abbrev main_call2_v13 : Ref sig .tc := ⟨.hbm, 76, rfl⟩
abbrev main_call2_cst : Ref sig .tc := ⟨.hbm, 77, rfl⟩
abbrev main_call2_v14 : Ref sig .tc := ⟨.hbm, 78, rfl⟩
abbrev main_v12 : Ref sig .tc := ⟨.hbm, 79, rfl⟩
abbrev main_v13 : Ref sig .tc := ⟨.hbm, 80, rfl⟩
abbrev main_v14 : Ref sig .tc := ⟨.hbm, 81, rfl⟩
abbrev main_v15 : Ref sig .tc := ⟨.hbm, 82, rfl⟩
abbrev main_cst_1 : Ref sig .tc := ⟨.hbm, 83, rfl⟩
abbrev main_v16 : Ref sig .tc := ⟨.hbm, 84, rfl⟩
abbrev main_v17 : Ref sig .tc := ⟨.hbm, 85, rfl⟩
abbrev main_v18 : Ref sig .tc := ⟨.hbm, 86, rfl⟩
abbrev main_v19 : Ref sig .tc := ⟨.hbm, 87, rfl⟩
abbrev main_cst_2 : Ref sig .tc := ⟨.hbm, 88, rfl⟩
abbrev main_v20 : Ref sig .tc := ⟨.hbm, 89, rfl⟩
abbrev main_v21 : Ref sig .tc := ⟨.hbm, 90, rfl⟩
abbrev main_v22 : Ref sig .tc := ⟨.hbm, 91, rfl⟩
abbrev main_v23 : Ref sig .tc := ⟨.hbm, 92, rfl⟩
abbrev main_v24 : Ref sig .tc := ⟨.hbm, 93, rfl⟩
abbrev main_cst_3 : Ref sig .tc := ⟨.hbm, 94, rfl⟩
abbrev main_v25 : Ref sig .tc := ⟨.hbm, 95, rfl⟩
abbrev main_v26 : Ref sig .tc := ⟨.hbm, 96, rfl⟩
abbrev main_v27 : Ref sig .tc := ⟨.hbm, 97, rfl⟩
abbrev main_cst_4 : Ref sig .tc := ⟨.hbm, 98, rfl⟩
abbrev main_v28 : Ref sig .tc := ⟨.hbm, 99, rfl⟩
abbrev main_v29 : Ref sig .tc := ⟨.hbm, 100, rfl⟩
abbrev main_v30 : Ref sig .tc := ⟨.hbm, 101, rfl⟩
abbrev main_v31 : Ref sig .tc := ⟨.hbm, 102, rfl⟩
abbrev main_v32 : Ref sig .tc := ⟨.hbm, 103, rfl⟩
abbrev main_cst_5 : Ref sig .tc := ⟨.hbm, 104, rfl⟩
abbrev main_v33 : Ref sig .tc := ⟨.hbm, 105, rfl⟩
abbrev main_cst_6 : Ref sig .tc := ⟨.hbm, 106, rfl⟩
abbrev main_v34 : Ref sig .tc := ⟨.hbm, 107, rfl⟩

abbrev nD : Nat := 1
abbrev τ : Topo := Topo.v7x

variable {F : FTy → Type} [FloatOps F]

class Facts₀ : Prop where
  slices_S24x128x32000_S8x128x32000_0_0_0 : S24x128x32000.Slices ![0, 0, 0] S8x128x32000
  slices_S24x128x32000_S16x128x32000_8_0_0 : S24x128x32000.Slices ![8, 0, 0] S16x128x32000
  bcast_S_S16 : S_.BroadcastsInDim S16 (![] : Fin 0 → Fin S16.rank)
  bcast_S_S8x128x32000 : S_.BroadcastsInDim S8x128x32000 (![] : Fin 0 → Fin S8x128x32000.rank)
  bcast_S16_S16x1_0 : S16.BroadcastsInDim S16x1 (![0] : Fin 1 → Fin S16x1.rank)
  bcast_S8x128_S8x128x1_0_1 : S8x128.BroadcastsInDim S8x128x1 (![0, 1] : Fin 2 → Fin S8x128x1.rank)
  bcast_S_S8x128x1 : S_.BroadcastsInDim S8x128x1 (![] : Fin 0 → Fin S8x128x1.rank)
  shapeCasts_S8x128x1_S8x128x1x1 : S8x128x1.ShapeCasts S8x128x1x1
  bcast_S_S8x128x1x1 : S_.BroadcastsInDim S8x128x1x1 (![] : Fin 0 → Fin S8x128x1x1.rank)
  bcast_S1_S1x1x1x1_3 : S1.BroadcastsInDim S1x1x1x1 (![3] : Fin 1 → Fin S1x1x1x1.rank)
  bcast_S1x1x1x1_S8x128x1x1_0_1_2_3 : S1x1x1x1.BroadcastsInDim S8x128x1x1 (![0, 1, 2, 3] : Fin 4 → Fin S8x128x1x1.rank)
  reducesTo_S8x128x1x1_S8x128x1_d3 : S8x128x1x1.ReducesTo [3] S8x128x1
  h_S_ : 0 < S_.numel
  shapeCasts_S8x128x1_S8x128 : S8x128x1.ShapeCasts S8x128
  reducesTo_S8x128_S8_d1 : S8x128.ReducesTo [1] S8
  slices_S8x128_S8x1_0_127 : S8x128.Slices ![0, 127] S8x1
  shapeCasts_S8x1_S8 : S8x1.ShapeCasts S8
  bcast_S_S8 : S_.BroadcastsInDim S8 (![] : Fin 0 → Fin S8.rank)
  reducesTo_S8_S_d0 : S8.ReducesTo [0] S_
  scatter_S8x128x32000_S16x1_S16x128x32000_12_0_0_1_wf : ScatterDims.WF S8x128x32000 S16x1 S16x128x32000 [1, 2] [0] [0] 1
  gather_S8x128x32000_S8x128x1x1_S8x128x1_n_2_01_01_2_3_111_wf : GatherDims.WF S8x128x32000 S8x128x1x1 S8x128x1 [] [2] [0, 1] [2] [0, 1] 3 ![1, 1, 1]

variable [Facts₀]

def scatter_S8x128x32000_S16x1_S16x128x32000_12_0_0_1 : ScatterDims S8x128x32000 S16x1 S16x128x32000 where
  updateWindowDims := [1, 2]
  insertedWindowDims := [0]
  scatterDimsToOperandDims := [0]
  indexVectorDim := 1
  wf := scatter_S8x128x32000_S16x1_S16x128x32000_12_0_0_1_wf
def gather_S8x128x32000_S8x128x1x1_S8x128x1_n_2_01_01_2_3_111 : GatherDims S8x128x32000 S8x128x1x1 S8x128x1 where
  offsetDims := []
  collapsedSliceDims := [2]
  operandBatchingDims := [0, 1]
  startIndicesBatchingDims := [0, 1]
  startIndexMap := [2]
  indexVectorDim := 3
  sliceSizes := ![1, 1, 1]
  wf := gather_S8x128x32000_S8x128x1x1_S8x128x1_n_2_01_01_2_3_111_wf

class Facts : Prop extends Facts₀ where

variable [Facts]
-- ==== Proof.Spec.lean ====
/-
  The specification both programs meet, over literal shapes and with no program imported.

  Inputs: `e : [24, 128, 32000]` (three groups of eight rows: the examples and the two contrast halves) and integer
  targets `tg : [8, 128]`.  For a group `g`, a row `r` of the group and a position `t`, the GATHERED value is
  `e[8 g + r, t, tg[r, t]]`.  Then `ex = ` group 0's gathered values, `ct = ` group 1's plus group 2's, and the loss is
  one fixed chain of host operations (`tail`) of the pair `(ex, ct)`; that chain is never opened: the two programs
  are compared on `ex` and `ct` alone.
-/
import Idealize.ShloMosaic.PureOps.Ideal
import Idealize.ShloMosaic.Lib.ValueIdx

noncomputable section

namespace Cert.Spec

open Idealize.ShloMosaic Idealize.ShloMosaic.ValueIdx

abbrev SE : Shape := ⟨3, ![24, 128, 32000]⟩
abbrev ST : Shape := ⟨2, ![8, 128]⟩
abbrev S0 : Shape := ⟨0, ![]⟩
abbrev S8 : Shape := ⟨1, ![8]⟩
abbrev S8x1 : Shape := ⟨2, ![8, 1]⟩
abbrev SO : Shape := ⟨3, ![2, 24, 128]⟩

/-- Every target names a column of the vocabulary axis: as an unsigned word it is below 32000 (so it is also
    non-negative as a signed word). -/
def InRange (tg : IVec ST 32) : Prop := ∀ j : ST.Idx, (tg j).toNat < 32000

/-- The column a target word names (in range: the word itself). -/
def colOf (w : BitVec 32) : Fin 32000 := ⟨min w.toNat 31999, by omega⟩

/-- Row `r` of group `g`. -/
def rowOf (g : Fin 3) (r : Fin 8) : Fin 24 := ⟨8 * g.val + r.val, by omega⟩

/-- Group `g`'s gathered values: `e[8 g + r, t, tg[r, t]]`. -/
def gath (e : FVec Ideal SE .f32) (tg : IVec ST 32) (g : Fin 3) : FVec Ideal ST .f32 :=
  fun j => e (ix3 (rowOf g (j 0)) (j 1) (colOf (tg j)))

/-- The examples' gathered values. -/
def exG (e : FVec Ideal SE .f32) (tg : IVec ST 32) : FVec Ideal ST .f32 := gath e tg 0

/-- The contrast: the two contrast halves' gathered values, added. -/
def ctG (e : FVec Ideal SE .f32) (tg : IVec ST 32) : FVec Ideal ST .f32 :=
  fun j => gath e tg 1 j + gath e tg 2 j

/-- The kernel's output planes: plane `h` holds, at row `n` and position `t`, the entry `e[n, t, tg[n mod 8, t]]` when
    the target column lies in vocabulary half `h` (columns `16000 h … 16000 h + 15999`), and zero otherwise. -/
def outG (e : FVec Ideal SE .f32) (tg : IVec ST 32) : FVec Ideal SO .f32 :=
  fun i =>
    let n : Fin 24 := i 1
    let t : Fin 128 := i 2
    let r : Fin 8 := ⟨n.val % 8, Nat.mod_lt _ (by decide)⟩
    let col := colOf (tg (ix2 r t))
    if col.val / 16000 = (i 0).val then e (ix3 n t col) else 0

/-- The output plane a grid position writes (positions run plane-major: 15 to a plane). -/
def planeOf (n : ℕ) : Fin 2 := ⟨(n / 15) % 2, Nat.mod_lt _ (by decide)⟩

/-- The output row that row `r` of the block at grid position `n` is (five positions to a row group, three groups). -/
def rowAt (n : ℕ) (r : Fin 8) : Fin 24 := ⟨8 * ((n / 5) % 3) + r.val, by have := Nat.mod_lt (n / 5) (show 0 < 3 by decide); omega⟩

/-- The shape relations the loss chain's operations cite. -/
structure TailFacts : Prop where
  red1 : ST.ReducesTo [1] S8
  h0 : 0 < S0.numel
  sl : ST.Slices ![0, 127] S8x1
  sc : S8x1.ShapeCasts S8
  bc : S0.BroadcastsInDim S8 (![] : Fin 0 → Fin S8.rank)
  red0 : S8.ReducesTo [0] S0

variable {F : FTy → Type} [FloatOps F]

/-- The loss chain: from `ex` and `ct` (both [8, 128]) to the scalar
    `mean_r (if Σ_t log tanh (ex/ct) < 0 then -Σ_t log tanh ex - 0.05 · tanh (log ct[r, 127]) else -Σ_t log tanh ex)`,
    written operation by operation as both programs print it. -/
def tail (hf : TailFacts) (ex ct : FVec F ST .f32) : FVec F S0 .f32 :=
  let lp : FVec F S8 .f32 := Host.reduceAdd (Host.log (Host.tanh ex)) (constant S0 .f32 0x00000000#32) hf.red1 hf.h0
  let ld : FVec F S8 .f32 := Host.reduceAdd (Host.log (Host.tanh (Host.divf ex ct))) (constant S0 .f32 0x00000000#32) hf.red1 hf.h0
  let last : FVec F S8 .f32 := Host.tanh (Host.log (shapeCast S8 (extractStridedSlice S8x1 ![0, 127] ct hf.sl) hf.sc))
  let neg : IVec S8 1 := cmpf .olt ld (broadcastInDim S8 ![] hf.bc (constant S0 .f32 0x00000000#32))
  let a : FVec F S8 .f32 := subf (Host.negf lp) (mulf (broadcastInDim S8 ![] hf.bc (constant S0 .f32 0x3D4CCCCD#32)) last)
  let s : FVec F S0 .f32 := Host.reduceAdd (select neg a (Host.negf lp)) (constant S0 .f32 0x00000000#32) hf.red0 hf.h0
  Host.divf s (constant S0 .f32 0x41000000#32)

end Cert.Spec

end
-- ==== Proof.PreDecode.lean ====
/-
  The precondition, read: its last conjunct is an `and` over all [8, 128] positions of
  `0 ≤ target` (signed) and `target < 32000` (signed); a word that passes both is, as an unsigned word, below 32000.
-/
import proofs.«402580_j36618891166334_3_alg».proof.Proof.Spec
import proofs.«402580_j36618891166334_3_alg».proof.Proof.Gen.Pre_finite_inputs
import Idealize.ShloMosaic.Lib.ReduceAll
import Idealize.ShloMosaic.Lib.Affine
import Idealize.ShloMosaic.Lib.ValueIdx

noncomputable section

namespace Cert.PreDecode

open Idealize.ShloMosaic Idealize.ShloMosaic.ValueIdx Idealize.SL.Sem

instance : Subsingleton Cert.Pre_finite_inputs.S_.Idx := ⟨fun a b => funext fun d => d.elim0⟩

/-- A word that is non-negative and below 32000 as a signed word is below 32000 as an unsigned word. -/
theorem toNat_lt (w : BitVec 32) (h0 : IntOp.cmpi .sge w (0#32) = 1#1) (h1 : IntOp.cmpi .slt w (32000#32) = 1#1) :
    w.toNat < 32000 := by
  unfold IntOp.cmpi at h0 h1
  have e : ∀ b : Bool, BitVec.ofBool b = 1#1 ↔ b = true := fun b => by cases b <;> decide
  rw [e] at h0 h1
  simp only [BitVec.slt, BitVec.sle, decide_eq_true_eq] at h0 h1
  have h32 := w.isLt
  unfold BitVec.toInt at h0 h1
  split at h1 <;> simp at h0 h1 <;> omega

/-- Under the precondition every target is in range, for any float instance. -/
theorem inRange_of_fn {F : FTy → Type} [FloatOps F] (e : FVec F Cert.Pre_finite_inputs.S24x128x32000 .f32)
    (tg : IVec Cert.Pre_finite_inputs.S8x128 32)
    (h : Cert.Pre_finite_inputs.fn (F := F) e tg = fun _ => 1#1) : Cert.Spec.InRange tg := by
  intro j
  have h' := congrFun h ix0
  unfold Cert.Pre_finite_inputs.fn at h'
  dsimp only at h'
  have h2 := (IntOp.andi_eq_one.mp h').2
  have h3 := Host.reduce_andi_all _ _ _ _ _ h2 j
  have h4 := IntOp.andi_eq_one.mp h3
  exact toNat_lt _ h4.1 h4.2

end Cert.PreDecode

end
-- ==== Proof.KBody.lean ====
/-
  What one run of the kernel body leaves in the output block.  The body's loop carries an [8, 128] accumulator
  over the five 640-lane pieces of the [8, 128, 3200] tile: piece k contributes, at (r, t), the lane sum of the piece
  masked to the lane whose number equals the target minus the piece's vocabulary offset.  The block then holds its
  previous contents (zeros at the first tile of a row group) plus the accumulator.
-/
import proofs.«402580_j36618891166334_3_alg».proof.Proof.Gen.KernelIdeal.Frame
import Idealize.ShloMosaic.Lib.ValueIdx
import Idealize.ShloMosaic.Lib.Pipeline.Value
import Idealize.ShloMosaic.Lib.Tactic

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable {F : FTy → Type} [FloatOps F]

/-- Piece `k` of a tile: lanes `640 k … 640 k + 639`. -/
def sub640 (x0 : Vec F S8x128x3200 .f32) (k : Fin k0_t1_loop.trips) : Vec F S8x128x640 .f32 :=
  fun y => x0 (ix3 (y 0) (y 1) (⟨640 * k.val + (y 2).val, by
    have h5 := k0_t1_abs.2.1; have hk := k.isLt; have h2 : (y 2).val < 640 := (y 2).isLt; omega⟩ : Fin 3200))

/-- The accumulator before piece `k`: zeros, then one payload per piece. -/
def accAt (i : grid0.Coords) (x0 : Vec F S8x128x3200 .f32) (x1 : Vec F S8x128 .i32) : ℕ → FVec F S8x128 .f32
  | 0 => k0_pay2
  | k + 1 => if h : k < k0_t1_loop.trips then k0_pay3 i ⟨k, h⟩ (accAt i x0 x1 k) x1 (sub640 x0 ⟨k, h⟩) else accAt i x0 x1 k

/-- The accumulator after the last piece. -/
def loopVal (i : grid0.Coords) (x0 : Vec F S8x128x3200 .f32) (x1 : Vec F S8x128 .i32) : FVec F S8x128 .f32 :=
  accAt i x0 x1 k0_t1_loop.trips

/-- Two zero offsets, however spelt. -/
private theorem hz2 : (![0, 0] : Fin 2 → Nat) = fun _ => 0 := funext fun a => by fin_cases a <;> rfl

/-- Three zero offsets, however spelt. -/
private theorem hz3 : (![0, 0, 0] : Fin 3 → Nat) = fun _ => 0 := funext fun a => by fin_cases a <;> rfl

/-- The load of the whole target block reads the block. -/
private theorem ld_tg (a4 : Memref sig .tc .vmem S8x128 .i32) (h4 : a4.IsWhole) (x1 : Vec F S8x128 .i32) :
    View.readAt (Elt F) a4.view (Rect.unit (s := S8x128) ![0, 0] S8x128.size inb_S8x128_S8x128_0_0).toLoadRect (h4.unread x1) = x1 := by
  rw [View.readAt_eq_ld, h4.read_unread, View.ld_unit_zero (S := S8x128) hz2]

/-- The load of piece `k` of the tile reads the tile at lanes `640 k + y₂`. -/
private theorem ld_tile (a3 : Memref sig .tc .vmem S8x128x3200 .f32) (h3 : a3.IsWhole) (x0 : Vec F S8x128x3200 .f32)
    (k : Fin k0_t1_loop.trips) :
    View.readAt (Elt F) a3.view (Rect.unit (s := S8x128x3200) (k0_off1 k) S8x128x640.size (k0_off1_inb k)).toLoadRect (h3.unread x0)
      = sub640 x0 k := by
  rw [View.readAt_eq_ld, h3.read_unread]
  funext y
  unfold sub640
  show x0 _ = x0 _
  congr 1
  funext a
  apply Fin.ext
  have hk := k0_off1_eq k
  have e0 : k0_off1 k 0 = 0 := congrFun hk 0
  have e1 : k0_off1 k 1 = 0 := congrFun hk 1
  have e2 : k0_off1 k 2 = 640 * k.val := congrFun hk 2
  match a with
  | ⟨0, _⟩ => show k0_off1 k 0 + 1 * (y 0).val = (y 0).val; omega
  | ⟨1, _⟩ => show k0_off1 k 1 + 1 * (y 1).val = (y 1).val; omega
  | ⟨2, _⟩ => show k0_off1 k 2 + 1 * (y 2).val = 640 * k.val + (y 2).val; omega

/-- One trip of the loop: the payload of the trip at the whole target block and piece `k` of the tile. -/
private theorem trip_eq (𝒱 : Variants) (c : Dev nD) (bd : Option 𝒱.V) (i : grid0.Coords) (a3 : Memref sig .tc .vmem S8x128x3200 .f32) (h3 : a3.IsWhole)
    (a4 : Memref sig .tc .vmem S8x128 .i32) (h4 : a4.IsWhole) (a5 : Memref sig .tc .vmem S1x8x128 .f32) (h5 : a5.IsWhole)
    (x0 : Vec F S8x128x3200 .f32) (x1 : Vec F S8x128 .i32) (k : Fin k0_t1_loop.trips) (acc : FVec F S8x128 .f32) :
    tripR_k0_t1 𝒱 c bd i a3 h3 a4 h4 a5 h5 (h3.unread x0) (h4.unread x1) k acc = k0_pay3 i k acc x1 (sub640 x0 k) := by
  delta tripR_k0_t1 trip_k0_t1
  exact congrArg₂ (k0_pay3 i k acc) (ld_tg a4 h4 x1) (ld_tile a3 h3 x0 k)

/-- The carried value before trip `n` is the accumulator before piece `n`: by induction on the trips, each trip by
    its one-step law. -/
private theorem st_eq (c : Dev nD) (i : grid0.Coords) (a3 : Memref sig .tc .vmem S8x128x3200 .f32) (h3 : a3.IsWhole)
    (a4 : Memref sig .tc .vmem S8x128 .i32) (h4 : a4.IsWhole) (a5 : Memref sig .tc .vmem S1x8x128 .f32) (h5 : a5.IsWhole)
    (x0 : Vec F S8x128x3200 .f32) (x1 : Vec F S8x128 .i32) :
    ∀ n : ℕ, st_k0_t1 Variants.none c none i a3 h3 a4 h4 a5 h5 (h3.unread x0) (h4.unread x1) (k0_pay2 (F := F)) n
      = accAt i x0 x1 n
  | 0 => rfl
  | n + 1 => by
    by_cases h : n < k0_t1_loop.trips
    · have e := st_k0_t1_succ (F := F) Variants.none c none i a3 h3 a4 h4 a5 h5 (h3.unread x0) (h4.unread x1) k0_pay2 ⟨n, h⟩
      have e' : accAt i x0 x1 (n + 1) = k0_pay3 i ⟨n, h⟩ (accAt i x0 x1 n) x1 (sub640 x0 ⟨n, h⟩) := dif_pos h
      rw [e', ← st_eq c i a3 h3 a4 h4 a5 h5 x0 x1 n, ← trip_eq Variants.none c none i a3 h3 a4 h4 a5 h5 x0 x1 ⟨n, h⟩]
      exact e
    · have e' : accAt i x0 x1 (n + 1) = accAt i x0 x1 n := dif_neg h
      rw [e', ← st_eq c i a3 h3 a4 h4 a5 h5 x0 x1 n, st_k0_t1.eq_2]
      delta st_k0_t1Step
      exact dif_neg h

/-- The loop's result is the accumulator after the last piece. -/
private theorem st_loopVal (c : Dev nD) (i : grid0.Coords) (a3 : Memref sig .tc .vmem S8x128x3200 .f32) (h3 : a3.IsWhole)
    (a4 : Memref sig .tc .vmem S8x128 .i32) (h4 : a4.IsWhole) (a5 : Memref sig .tc .vmem S1x8x128 .f32) (h5 : a5.IsWhole)
    (x0 : Vec F S8x128x3200 .f32) (x1 : Vec F S8x128 .i32) :
    st_k0_t1 Variants.none c none i a3 h3 a4 h4 a5 h5 (h3.unread x0) (h4.unread x1) (k0_pay2 (F := F)) k0_t1_loop.trips
      = loopVal i x0 x1 :=
  st_eq c i a3 h3 a4 h4 a5 h5 x0 x1 k0_t1_loop.trips

/-- At the first tile of a row group the block is reset, then the accumulator is added to the zeros read back. -/
theorem out_A (c : Dev nD) (i : grid0.Coords) (a3 : Memref sig .tc .vmem S8x128x3200 .f32) (h3 : a3.IsWhole)
    (a4 : Memref sig .tc .vmem S8x128 .i32) (h4 : a4.IsWhole) (a5 : Memref sig .tc .vmem S1x8x128 .f32) (h5 : a5.IsWhole)
    (hc : cond0_0 i) (x0 : Vec F S8x128x3200 .f32) (x1 : Vec F S8x128 .i32) :
    out0_A_2 c i a3 h3 a4 h4 a5 h5 hc x0 x1 = k0_pay4 (loopVal i x0 x1) (k0_pay1 (F := F)) := by
  delta out0_A_2
  rw [View.read_writes_eq_canon _ _ _ (cover0_A_2 c i a3 h3 a4 h4 a5 h5 hc x0 x1)]
  delta kernelRun0_A
  dsimp only
  sl_unfold_words
  rw [View.canon_cons_unit_zero (S := S1x8x128) hz3, View.readCov_unit_zero (S := S1x8x128) _ hz3]
  exact congrArg (fun v => k0_pay4 v (k0_pay1 (F := F))) (st_loopVal c i a3 h3 a4 h4 a5 h5 x0 x1)

/-- At a later tile the accumulator is added to what the block held. -/
theorem out_B (c : Dev nD) (i : grid0.Coords) (a3 : Memref sig .tc .vmem S8x128x3200 .f32) (h3 : a3.IsWhole)
    (a4 : Memref sig .tc .vmem S8x128 .i32) (h4 : a4.IsWhole) (a5 : Memref sig .tc .vmem S1x8x128 .f32) (h5 : a5.IsWhole)
    (hc : ¬cond0_0 i) (x0 : Vec F S8x128x3200 .f32) (x1 : Vec F S8x128 .i32) (xo : Vec F S1x8x128 .f32) :
    out0_B_2 c i a3 h3 a4 h4 a5 h5 hc x0 x1 xo = k0_pay4 (loopVal i x0 x1) xo := by
  delta out0_B_2
  rw [View.read_writes_eq_canon _ _ _ (cover0_B_2 c i a3 h3 a4 h4 a5 h5 hc x0 x1 xo)]
  delta kernelRun0_B
  dsimp only
  rw [View.canon_unit_zero (S := S1x8x128) hz3]
  have eo : View.readAt (Elt F) a5.view (Rect.unit (s := S1x8x128) ![0, 0, 0] S1x8x128.size inb_S1x8x128_S1x8x128_0_0_0).toLoadRect (h5.unread xo) = xo := by
    rw [View.readAt_eq_ld, h5.read_unread, View.ld_unit_zero (S := S1x8x128) hz3]
  exact congrArg₂ k0_pay4 (st_loopVal c i a3 h3 a4 h4 a5 h5 x0 x1) eo

end Cert.KernelIdeal.Hand

end
-- ==== Proof.KMath.lean ====
/-
  The body's arithmetic at one entry, over the extended reals.  With the target word below 32000, lane `l` of the
  tile at vocabulary offset `o` is selected exactly when `o + l` is the target: the word-level test
  `iota = target - (o + 640 k)` loses nothing, because every quantity stays below 2^31.  So the accumulator after the
  five pieces is a sum over the tile's 3200 lanes with at most one non-zero term.
-/
import proofs.«402580_j36618891166334_3_alg».proof.Proof.KBody
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

/-- The vocabulary offset of the tile a grid point loads. -/
def tileOff (i : grid0.Coords) : ℕ := ((i 0).val * 5 + (i 2).val) * 3200

/-! ## Words: the scalar offset and the lane test -/

/-- With the target and off + l both below 32000, the word test l = target - off is the equation off + l = target
    of naturals: the difference does not wrap. -/
private theorem word_eq (tg : BitVec 32) (off l : ℕ) (htg : tg.toNat < 32000) (hol : off + l < 32000) :
    (BitVec.ofNat 32 l = tg - BitVec.ofNat 32 off) ↔ off + l = tg.toNat := by
  rw [BitVec.eq_sub_iff_add_eq, ← BitVec.ofNat_add]
  constructor
  · intro h
    have h2 := congrArg BitVec.toNat h
    rw [BitVec.toNat_ofNat, Nat.mod_eq_of_lt (by omega)] at h2
    omega
  · intro h
    apply BitVec.eq_of_toNat_eq
    rw [BitVec.toNat_ofNat, Nat.mod_eq_of_lt (by omega)]
    omega

/-- The scalar chain (a·5 + b)·3200 + k·640 on 32-bit words is the word of that natural number (ring laws modulo 2^32). -/
private theorem off_word (a b k : ℕ) :
    Scalar.addi (Scalar.muli (Scalar.addi (Scalar.muli (BitVec.ofNat 32 a) 5#32) (BitVec.ofNat 32 b)) 3200#32)
      (Scalar.muli (Scf.iv 0#32 1#32 k) 640#32) = BitVec.ofNat 32 ((a * 5 + b) * 3200 + k * 640) := by
  simp only [Scalar.addi, Scalar.muli, IntOp.addi, IntOp.muli, Scf.iv, BitVec.ofNat_add, BitVec.ofNat_mul,
    BitVec.zero_add, BitVec.mul_one]

/-! ## The layout operations of one trip, read at an index -/

/-- A column [8,128,1] laid along 640 lanes reads, at (r, q, l), the column at (r, q, 0). -/
private theorem bcast_col_apply (v : IVec S8x128x1 32) (r : Fin 8) (q : Fin 128) (l : Fin 640) :
    broadcastTo S8x128x640 v broadcasts_S8x128x1_S8x128x640 (ix3 r q l) = v (ix3 r q (0 : Fin 1)) :=
  broadcastTo_apply v broadcasts_S8x128x1_S8x128x640 (ix3 r q l) (ix3 r q (0 : Fin 1)) fun a =>
    match a with
    | ⟨0, _⟩ => rfl
    | ⟨1, _⟩ => rfl
    | ⟨2, _⟩ => rfl

/-- An [8,128] array viewed [8,128,1] reads, at (r, q, 0), the array at (r, q): equal row-major positions. -/
private theorem cast_col_apply (v : IVec S8x128 32) (r : Fin 8) (q : Fin 128) :
    shapeCast S8x128x1 v shapeCasts_S8x128_S8x128x1 (ix3 r q (0 : Fin 1)) = v (ix2 r q) :=
  shapeCast_apply v shapeCasts_S8x128_S8x128x1 (ix3 r q (0 : Fin 1)) (ix2 r q) (by
    rw [Shape.rowMajor_val_three, Shape.rowMajor_val_two]
    show r.val * 128 + q.val = (r.val * 128 + q.val) * 1 + 0
    omega)

/-- The source index of the lane sum over (r, q) with lane l inserted is (r, q, l). -/
private theorem lift_lane (r : Fin 8) (q : Fin 128) (l : Fin 640) :
    reduces_S8x128x640_S8x128.lift (ix2 r q) l = ix3 r q l := by
  funext c
  apply Fin.ext
  match c with
  | ⟨0, _⟩ => rfl
  | ⟨1, _⟩ => rfl
  | ⟨2, _⟩ => rfl

/-- The lane mask at (r, q, l): the word test of lane number l against the target at (r, q) minus the scalar offset w. -/
private theorem cond_apply (x1 : Vec Ideal S8x128 .i32) (w : BitVec 32) (r : Fin 8) (q : Fin 128) (l : Fin 640) :
    cmpi CmpIPredicate.eq (iota Kind.tc S8x128x640 32 [2] iota_S8x128x640_d2_w32)
      (broadcastTo S8x128x640
        (shapeCast S8x128x1 (subi (shapeCast S8x128 x1 shapeCasts_S8x128_S8x128) (broadcast S8x128 w)) shapeCasts_S8x128_S8x128x1)
        broadcasts_S8x128x1_S8x128x640) (ix3 r q l)
      = IntOp.cmpi .eq (BitVec.ofNat 32 l.val) (x1 (ix2 r q) - w) := by
  show IntOp.cmpi .eq (iota Kind.tc S8x128x640 32 [2] iota_S8x128x640_d2_w32 (ix3 r q l)) (broadcastTo S8x128x640 _ broadcasts_S8x128x1_S8x128x640 (ix3 r q l)) = _
  rw [bcast_col_apply, cast_col_apply, shapeCast_self, iota_single_apply]
  rfl

/-- The select on that test keeps the entry exactly when off + l is the target, and is the extended real 0 otherwise. -/
private theorem sel_word (tg w : BitVec 32) (off l : ℕ) (hw : w = BitVec.ofNat 32 off) (htg : tg.toNat < 32000) (hol : off + l < 32000)
    (a : Ideal .f32) :
    Scalar.select (IntOp.cmpi .eq (BitVec.ofNat 32 l) (tg - w)) a (FloatOps.ofBits (F := Ideal) FTy.f32 0#32)
      = if off + l = tg.toNat then a else 0 := by
  subst hw
  by_cases hc : off + l = tg.toNat
  · rw [if_pos hc, IntOp.cmpi_eq.mpr ((word_eq tg off l htg hol).mpr hc)]
    exact select_one _ _
  · have hne : ¬ IntOp.cmpi .eq (BitVec.ofNat 32 l) (tg - BitVec.ofNat 32 off) = 1#1 := fun h1 =>
      hc ((word_eq tg off l htg hol).mp (IntOp.cmpi_eq.mp h1))
    rw [if_neg hc, eq_zero_of_ne_one hne, select_zero]
    exact Ideal.ofBits_zero_f32

/-! ## One trip -/

/-- Trip k adds to the carried value, at (r, q), the piece's 640 lanes, each kept when its vocabulary position
    tileOff i + 640 k + l is the target. Depends on: the target below 32000, and the grid's and the loop's ranges
    (so that the offset plus a lane stays below 32000). -/
private theorem step_apply (i : grid0.Coords) (k : Fin k0_t1_loop.trips) (acc : FVec Ideal S8x128 .f32) (x1 : Vec Ideal S8x128 .i32)
    (v26 : Vec Ideal S8x128x640 .f32) (r : Fin 8) (q : Fin 128)
    (h : (x1 (ix2 r q)).toNat < 32000) :
    k0_pay3 (F := Ideal) i k acc x1 v26 (ix2 r q)
      = acc (ix2 r q) + ∑ l : Fin 640, if tileOff i + 640 * k.val + l.val = (x1 (ix2 r q)).toNat then v26 (ix3 r q l) else 0 := by
  have h0 : (i 0).val < 2 := (i 0).isLt
  have h2 : (i 2).val < 5 := (i 2).isLt
  have hk : k.val < 5 := by have := k0_t1_abs.2.1; have := k.isLt; omega
  unfold k0_pay3
  refine (addf_apply acc _ (ix2 r q)).trans ?_
  refine congrArg (acc (ix2 r q) + ·) ?_
  refine (Ideal.multiReduction_add_single _ 0#32 reduces_S8x128x640_S8x128 _ _ (ix2 r q)).trans ?_
  show ∑ l : Fin 640, _ = _
  refine Finset.sum_congr rfl fun l _ => ?_
  rw [lift_lane]
  refine (select_apply _ _ _ (ix3 r q l)).trans ?_
  rw [cond_apply]
  refine sel_word _ _ (tileOff i + 640 * k.val) l.val ?_ h ?_ _
  · rw [off_word]; unfold tileOff; congr 1; omega
  · unfold tileOff; have := l.isLt; omega

/-! ## The five trips -/

/-- One lane's term of the tile sum, over a natural lane number (zero past the tile). -/
private def laneTerm (i : grid0.Coords) (x0 : Vec Ideal S8x128x3200 .f32) (x1 : Vec Ideal S8x128 .i32) (r : Fin 8) (q : Fin 128) (m : ℕ) : EReal :=
  if hm : m < 3200 then (if tileOff i + m = (x1 (ix2 r q)).toNat then x0 (ix3 r q (⟨m, hm⟩ : Fin 3200)) else 0) else 0

/-- The initial accumulator is zero everywhere. -/
private theorem pay2_apply (y : S8x128.Idx) : k0_pay2 (F := Ideal) y = 0 := Ideal.ofBits_zero_f32

/-- The loop runs five trips. -/
private theorem trips_eq : k0_t1_loop.trips = 5 := by decide

/-- Before piece n the accumulator at (r, q) is the sum of the first 640 n lane terms: induction over the trips, each
    adding the next 640 terms (a sum over a range split at 640 n). -/
private theorem accAt_apply (i : grid0.Coords) (x0 : Vec Ideal S8x128x3200 .f32) (x1 : Vec Ideal S8x128 .i32) (r : Fin 8) (q : Fin 128)
    (h : (x1 (ix2 r q)).toNat < 32000) :
    ∀ n : ℕ, n ≤ 5 → accAt (F := Ideal) i x0 x1 n (ix2 r q) = ∑ m ∈ Finset.range (640 * n), laneTerm i x0 x1 r q m := by
  intro n
  induction n with
  | zero =>
    intro _
    rw [accAt]
    rw [Nat.mul_zero, Finset.range_zero, Finset.sum_empty]
    exact pay2_apply _
  | succ n ih =>
    intro hn
    have hn' : n < k0_t1_loop.trips := by rw [trips_eq]; omega
    rw [accAt, dif_pos hn', step_apply i ⟨n, hn'⟩ _ x1 _ r q h, ih (by omega)]
    rw [show 640 * (n + 1) = 640 * n + 640 by omega, Finset.sum_range_add]
    refine congrArg (_ + ·) ?_
    rw [← Fin.sum_univ_eq_sum_range (fun m => laneTerm i x0 x1 r q (640 * n + m)) 640]
    refine Finset.sum_congr rfl fun l _ => ?_
    have hl : 640 * n + l.val < 3200 := by have := l.isLt; omega
    unfold laneTerm
    rw [dif_pos hl, Nat.add_assoc]
    rfl

/-- The accumulator after the five pieces, at (r, q): the tile's lanes, each kept when its vocabulary position is the target. -/
theorem loopVal_apply (i : grid0.Coords) (x0 : Vec Ideal S8x128x3200 .f32) (x1 : Vec Ideal S8x128 .i32) (r : Fin 8) (q : Fin 128)
    (h : (x1 (ix2 r q)).toNat < 32000) :
    loopVal (F := Ideal) i x0 x1 (ix2 r q)
      = ∑ l : Fin 3200, if tileOff i + l.val = (x1 (ix2 r q)).toNat then x0 (ix3 r q l) else 0 := by
  unfold loopVal
  rw [trips_eq, accAt_apply i x0 x1 r q h 5 (Nat.le_refl 5)]
  rw [show 640 * 5 = 3200 by norm_num, ← Fin.sum_univ_eq_sum_range (fun m => laneTerm i x0 x1 r q m) 3200]
  refine Finset.sum_congr rfl fun l _ => ?_
  unfold laneTerm
  rw [dif_pos l.isLt]

/-- The closing add at (0, r, q): the block's entry plus the accumulator's. -/
theorem pay4_apply (v8 : FVec Ideal S8x128 .f32) (xo : Vec Ideal S1x8x128 .f32) (r : Fin 8) (q : Fin 128) :
    k0_pay4 (F := Ideal) v8 xo (ix3 (0 : Fin 1) r q) = xo (ix3 (0 : Fin 1) r q) + v8 (ix2 r q) := by
  unfold k0_pay4
  refine (addf_apply _ _ (ix3 (0 : Fin 1) r q)).trans ?_
  rw [shapeCast_self]
  refine congrArg (xo (ix3 (0 : Fin 1) r q) + ·) ?_
  exact shapeCast_apply v8 shapeCasts_S8x128_S1x8x128 (ix3 (0 : Fin 1) r q) (ix2 r q) (by
    rw [Shape.rowMajor_val_three, Shape.rowMajor_val_two]
    show r.val * 128 + q.val = (0 * 8 + r.val) * 128 + q.val
    omega)

/-- The reset block is zero everywhere. -/
theorem pay1_apply (y : S1x8x128.Idx) : k0_pay1 (F := Ideal) y = 0 := by
  exact Ideal.ofBits_zero_f32

end Cert.KernelIdeal.Hand

end
-- ==== Proof.KSum.lean ====
/-
  What the output block holds when it is written back.  A row group's five tiles (grid positions 5 j … 5 j + 4)
  cover one vocabulary half, 16000 columns; the block starts at zero on the first and adds each tile's accumulator.
  Entry (r, q) of the block after the fifth tile is therefore the sum, over the half's columns, of the input entry kept
  where the column is the target: the input entry at the target if the target lies in this half, else zero.
-/
import proofs.«402580_j36618891166334_3_alg».proof.Proof.KMath
import proofs.«402580_j36618891166334_3_alg».proof.Proof.Spec

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## Two laws of sums over the extended reals with at most one non-zero term -/

/-- A sum over `n` consecutive positions `off … off + n - 1` that keeps only the term at position `w` is that term when
    `w` is one of the positions, and zero otherwise. -/
private theorem sum_keep_one (n off w : ℕ) (f : Fin n → EReal) (y : EReal) (hy : ∀ l : Fin n, off + l.val = w → f l = y) :
    (∑ l : Fin n, if off + l.val = w then f l else 0) = if off ≤ w ∧ w < off + n then y else 0 := by
  by_cases h : off ≤ w ∧ w < off + n
  · rw [if_pos h, Finset.sum_eq_single (⟨w - off, by omega⟩ : Fin n)]
    · have e : off + (w - off) = w := by omega
      rw [if_pos e]
      exact hy _ e
    · intro b _ hb
      rw [if_neg]
      intro hb'
      apply hb
      apply Fin.ext
      show b.val = w - off
      omega
    · intro h'
      exact absurd (Finset.mem_univ _) h'
  · rw [if_neg h]
    apply Finset.sum_eq_zero
    intro l _
    rw [if_neg]
    intro hl
    apply h
    have := l.isLt
    omega

/-- Two kept terms under exclusive conditions add to the term kept under either condition. -/
private theorem keep_add_keep (A B C : Prop) [Decidable A] [Decidable B] [Decidable C] (y : EReal) (hAB : ¬(A ∧ B))
    (hC : C ↔ A ∨ B) : (if A then y else 0) + (if B then y else 0) = if C then y else 0 := by
  by_cases hA : A <;> by_cases hB : B
  · exact absurd ⟨hA, hB⟩ hAB
  · rw [if_pos hA, if_neg hB, if_pos (hC.mpr (Or.inl hA)), add_zero]
  · rw [if_neg hA, if_pos hB, if_pos (hC.mpr (Or.inr hB)), zero_add]
  · rw [if_neg hA, if_neg hB, if_neg (fun h => (hC.mp h).elim hA hB), add_zero]

/-! ## The blocks a position reads -/

/-- The grid coordinates of position `n` are (n / 15, (n / 5) mod 3, n mod 5); the input window's block index there is
    (row group, 0, 5 · half + tile) and the target window's is (0, 0): a finite check over the thirty positions. -/
private theorem grid_facts : ∀ t : Fin cfg0.N,
    ((grid0.coords t) 0).val = t.val / 15 ∧ ((grid0.coords t) 1).val = (t.val / 5) % 3 ∧ ((grid0.coords t) 2).val = t.val % 5
    ∧ win0_0.index t (0 : Fin 3) = (t.val / 5) % 3 ∧ win0_0.index t (1 : Fin 3) = 0 ∧ win0_0.index t (2 : Fin 3) = 5 * (t.val / 15) + t.val % 5
    ∧ win0_1.index t (0 : Fin 2) = 0 ∧ win0_1.index t (1 : Fin 2) = 0 :=
  (by decide +kernel : ∀ t : Fin grid0.N, _)

/-- The input tile and the target block a position reads, and the two arrays, at their literal types. -/
private abbrev xblk (c : Dev nD) (t : Fin cfg0.N) : Vec Ideal S8x128x3200 .f32 := iblk m c 0 t
private abbrev tblk (c : Dev nD) (t : Fin cfg0.N) : Vec Ideal S8x128 .i32 := iblk m c 1 t
private abbrev earr (c : Dev nD) : Vec Ideal S24x128x32000 .f32 := V m c main_arg0
private abbrev tarr (c : Dev nD) : Vec Ideal S8x128 .i32 := V m c main_v0

/-- The vocabulary offset of the tile at position `n`: 3200 · (5 · half + tile). -/
private theorem tileOff_eq (n : ℕ) (hn : n < cfg0.N) : tileOff (grid0.coords ⟨n, hn⟩) = (n / 15 * 5 + n % 5) * 3200 := by
  have hf := grid_facts ⟨n, hn⟩
  have h0 : ((grid0.coords ⟨n, hn⟩) 0).val = n / 15 := hf.1
  have h2 : ((grid0.coords ⟨n, hn⟩) 2).val = n % 5 := hf.2.2.1
  unfold tileOff
  rw [h0, h2]

/-- Entry (r, q, l) of the tile is the input at row 8 · group + r, position q, column offset + l. -/
private theorem xblk_apply (c : Dev nD) (t : Fin cfg0.N) (r : Fin 8) (q : Fin 128) (l : Fin 3200) (row : Fin 24) (col : Fin 32000)
    (hrow : row.val = 8 * ((t.val / 5) % 3) + r.val) (hcol : col.val = tileOff (grid0.coords t) + l.val) :
    xblk m c t (ix3 r q l) = earr m c (ix3 row q col) := by
  have hf := grid_facts t
  obtain ⟨n, hn⟩ := t
  rw [tileOff_eq] at hcol
  dsimp only at hrow hf
  unfold xblk iblk
  rw [View.read_apply]
  show V m c main_arg0 _ = V m c main_arg0 _
  congr 1
  funext a
  apply Fin.ext
  match a with
  | ⟨0, _⟩ => show win0_0.index ⟨n, hn⟩ 0 * 8 + 1 * r.val = row.val; rw [hf.2.2.2.1]; omega
  | ⟨1, _⟩ => show win0_0.index ⟨n, hn⟩ 1 * 128 + 1 * q.val = q.val; rw [hf.2.2.2.2.1]; omega
  | ⟨2, _⟩ => show win0_0.index ⟨n, hn⟩ 2 * 3200 + 1 * l.val = col.val; rw [hf.2.2.2.2.2.1, hcol]; omega

/-- The target block is the whole target array. -/
private theorem tblk_apply (c : Dev nD) (t : Fin cfg0.N) (r : Fin 8) (q : Fin 128) :
    tblk m c t (ix2 r q) = tarr m c (ix2 r q) := by
  have hf := grid_facts t
  unfold tblk iblk
  rw [View.read_apply]
  show V m c main_v0 _ = V m c main_v0 _
  congr 1
  funext a
  apply Fin.ext
  match a with
  | ⟨0, _⟩ => show win0_1.index t 0 * 8 + 1 * r.val = r.val; rw [hf.2.2.2.2.2.2.1]; omega
  | ⟨1, _⟩ => show win0_1.index t 1 * 128 + 1 * q.val = q.val; rw [hf.2.2.2.2.2.2.2]; omega

/-! ## One tile's contribution -/

/-- What one tile adds at (r, q): the input entry at the target column when that column lies in the tile, else zero. -/
private theorem tile_sum (c : Dev nD) (n : ℕ) (hn : n < cfg0.N) (r : Fin 8) (q : Fin 128) (col : Fin 32000)
    (hcol : col.val = (tarr m c (ix2 r q)).toNat) :
    (∑ l : Fin 3200, if tileOff (grid0.coords ⟨n, hn⟩) + l.val = (tblk m c ⟨n, hn⟩ (ix2 r q)).toNat
        then xblk m c ⟨n, hn⟩ (ix3 r q l) else 0)
      = if (n / 15 * 5 + n % 5) * 3200 ≤ col.val ∧ col.val < (n / 15 * 5 + n % 5) * 3200 + 3200
          then earr m c (ix3 (Cert.Spec.rowAt n r) q col) else 0 := by
  rw [tblk_apply, ← hcol, ← tileOff_eq n hn]
  refine sum_keep_one 3200 (tileOff (grid0.coords ⟨n, hn⟩)) col.val (fun l => xblk m c ⟨n, hn⟩ (ix3 r q l))
    (earr m c (ix3 (Cert.Spec.rowAt n r) q col)) (fun l hl => ?_)
  exact xblk_apply m c ⟨n, hn⟩ r q l (Cert.Spec.rowAt n r) col rfl hl.symm

/-- At the first tile of a row group the block's entry is zero plus the tile's lane sum. -/
private theorem outs_first (c : Dev nD) (t : Fin cfg0.N) (h0 : t.val % 5 = 0) (r : Fin 8) (q : Fin 128)
    (hw : (tblk m c t (ix2 r q)).toNat < 32000) :
    outsAt0 m c t.val t.isLt (ix3 (0 : Fin 1) r q)
      = 0 + ∑ l : Fin 3200, if tileOff (grid0.coords t) + l.val = (tblk m c t (ix2 r q)).toNat then xblk m c t (ix3 r q l) else 0 := by
  rw [outsAt0_A m c t h0]
  refine (congrFun (out_A (F := Ideal) c (grid0.coords t) (ms0_0 t) (hs0_0 t) (ms0_1 t) (hs0_1 t) (ms0_2 t) (hs0_2 t)
    ((hcond0_0 t).mpr h0) (xblk m c t) (tblk m c t)) (ix3 (0 : Fin 1) r q)).trans ?_
  refine (pay4_apply (loopVal (F := Ideal) (grid0.coords t) (xblk m c t) (tblk m c t)) (k0_pay1 (F := Ideal)) r q).trans ?_
  rw [pay1_apply, loopVal_apply (grid0.coords t) (xblk m c t) (tblk m c t) r q hw]

/-- At a later tile it is the entry the tile before left plus the tile's lane sum. -/
private theorem outs_later (c : Dev nD) (n : ℕ) (hn : n + 1 < cfg0.N) (h0 : ¬(n + 1) % 5 = 0) (r : Fin 8) (q : Fin 128)
    (hw : (tblk m c ⟨n + 1, hn⟩ (ix2 r q)).toNat < 32000) :
    outsAt0 m c (n + 1) hn (ix3 (0 : Fin 1) r q)
      = outsAt0 m c n (Nat.lt_of_succ_lt hn) (ix3 (0 : Fin 1) r q)
        + ∑ l : Fin 3200, if tileOff (grid0.coords ⟨n + 1, hn⟩) + l.val = (tblk m c ⟨n + 1, hn⟩ (ix2 r q)).toNat
            then xblk m c ⟨n + 1, hn⟩ (ix3 r q l) else 0 := by
  have e := outsAt0_B m c ⟨n + 1, hn⟩ h0
  refine (congrFun e (ix3 (0 : Fin 1) r q)).trans ?_
  refine (congrFun (out_B (F := Ideal) c (grid0.coords ⟨n + 1, hn⟩) (ms0_0 ⟨n + 1, hn⟩) (hs0_0 ⟨n + 1, hn⟩) (ms0_1 ⟨n + 1, hn⟩)
    (hs0_1 ⟨n + 1, hn⟩) (ms0_2 ⟨n + 1, hn⟩) (hs0_2 ⟨n + 1, hn⟩) (fun h => h0 ((hcond0_0 ⟨n + 1, hn⟩).mp h))
    (xblk m c ⟨n + 1, hn⟩) (tblk m c ⟨n + 1, hn⟩) (outsAt0 m c n (Nat.lt_of_succ_lt hn))) (ix3 (0 : Fin 1) r q)).trans ?_
  refine (pay4_apply (loopVal (F := Ideal) (grid0.coords ⟨n + 1, hn⟩) (xblk m c ⟨n + 1, hn⟩) (tblk m c ⟨n + 1, hn⟩))
    (outsAt0 m c n (Nat.lt_of_succ_lt hn)) r q).trans ?_
  rw [loopVal_apply (grid0.coords ⟨n + 1, hn⟩) (xblk m c ⟨n + 1, hn⟩) (tblk m c ⟨n + 1, hn⟩) r q hw]

/-! ## The block after each tile -/

/-- After the tile at position `n` (tile number `n mod 5` of its row group, vocabulary half `n / 15`) the block's entry
    (r, q) is the input entry at the target column when that column lies in the columns covered so far,
    `16000 · half … 16000 · half + 3200 · (n mod 5 + 1) - 1`, and zero otherwise. -/
private theorem outs_inv (c : Dev nD) (h : Cert.Spec.InRange (V m c main_v0)) (r : Fin 8) (q : Fin 128) (col : Fin 32000)
    (hcol : col.val = (tarr m c (ix2 r q)).toNat) :
    ∀ (n : ℕ) (hn : n < cfg0.N), outsAt0 m c n hn (ix3 (0 : Fin 1) r q)
      = if 16000 * (n / 15) ≤ col.val ∧ col.val < 16000 * (n / 15) + 3200 * (n % 5 + 1)
          then earr m c (ix3 (Cert.Spec.rowAt n r) q col) else 0 := by
  have hN : cfg0.N = 30 := N_0
  have hw : ∀ t : Fin cfg0.N, (tblk m c t (ix2 r q)).toNat < 32000 := fun t => by
    rw [tblk_apply]; exact h (ix2 r q)
  intro n
  induction n with
  | zero =>
    intro hn
    refine (outs_first m c ⟨0, hn⟩ rfl r q (hw _)).trans ?_
    rw [zero_add, tile_sum m c 0 hn r q col hcol]
  | succ k ih =>
    intro hn
    by_cases h0 : (k + 1) % 5 = 0
    · refine (outs_first m c ⟨k + 1, hn⟩ h0 r q (hw _)).trans ?_
      rw [zero_add, tile_sum m c (k + 1) hn r q col hcol]
      exact if_congr (by show _ ∧ _ ↔ _ ∧ _; omega) rfl rfl
    · rw [outs_later m c k hn h0 r q (hw _), ih (Nat.lt_of_succ_lt hn), tile_sum m c (k + 1) hn r q col hcol]
      have hrow : Cert.Spec.rowAt k r = Cert.Spec.rowAt (k + 1) r := Fin.ext (by
        show 8 * ((k / 5) % 3) + r.val = 8 * (((k + 1) / 5) % 3) + r.val
        omega)
      rw [hrow]
      exact keep_add_keep _ _ _ _ (by show ¬((_ ∧ _) ∧ (_ ∧ _)); omega) (by show _ ∧ _ ↔ (_ ∧ _) ∨ (_ ∧ _); omega)

/-- At a position that writes back (the fifth tile of its row group), the block's entry (0, r, q) is the output-plane
    specification at (plane, row, q) of that position. -/
theorem outsAt_flush (c : Dev nD) (t : Fin cfg0.N) (ht : t.val % 5 = 4) (h : Cert.Spec.InRange (V m c main_v0))
    (r : Fin 8) (q : Fin 128) :
    outsAt0 m c t.val t.isLt (ix3 (0 : Fin 1) r q)
      = Cert.Spec.outG (V m c main_arg0) (V m c main_v0) (ix3 (Cert.Spec.planeOf t.val) (Cert.Spec.rowAt t.val r) q) := by
  have hN : cfg0.N = 30 := N_0
  have hlt : t.val < 30 := lt_of_lt_of_eq t.isLt hN
  have hwr : (tarr m c (ix2 r q)).toNat < 32000 := h (ix2 r q)
  have hcol : (Cert.Spec.colOf (tarr m c (ix2 r q))).val = (tarr m c (ix2 r q)).toNat := by
    show min (tarr m c (ix2 r q)).toNat 31999 = _
    omega
  rw [outs_inv m c h r q (Cert.Spec.colOf (tarr m c (ix2 r q))) hcol t.val t.isLt]
  have hr : (⟨(Cert.Spec.rowAt t.val r).val % 8, Nat.mod_lt _ (by decide)⟩ : Fin 8) = r := Fin.ext (by
    show (8 * ((t.val / 5) % 3) + r.val) % 8 = r.val
    omega)
  show _ = (if (Cert.Spec.colOf (tarr m c (ix2 (⟨(Cert.Spec.rowAt t.val r).val % 8, Nat.mod_lt _ (by decide)⟩ : Fin 8) q))).val / 16000
        = (Cert.Spec.planeOf t.val).val
      then earr m c (ix3 (Cert.Spec.rowAt t.val r) q
        (Cert.Spec.colOf (tarr m c (ix2 (⟨(Cert.Spec.rowAt t.val r).val % 8, Nat.mod_lt _ (by decide)⟩ : Fin 8) q)))) else 0)
  rw [hr]
  refine if_congr ?_ rfl rfl
  show _ ∧ _ ↔ _ / 16000 = (t.val / 15) % 2
  omega

end Cert.KernelIdeal.Hand

end
-- ==== Proof.KFlush.lean ====
/-
  From blocks to the array.  Output block (plane h, row group g) is written back once, at the fifth tile of its row
  group, and the six blocks tile the [2, 24, 128] array; so the array after the region is the output-plane
  specification of the inputs as the region found them.
-/
import proofs.«402580_j36618891166334_3_alg».proof.Proof.KSum

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The output window's block index at grid position n = 15 vh + 5 g + vv is (vh, g, 0): the plane is (n / 15) mod 2,
    the row group (n / 5) mod 3, and the position axis is not cut.  Thirty positions, each decided. -/
private theorem flush_index_facts : ∀ t : Fin cfg0.N, win0_2.index t (0 : Fin 3) = (t.val / 15) % 2
    ∧ win0_2.index t (1 : Fin 3) = (t.val / 5) % 3
    ∧ win0_2.index t (2 : Fin 3) = 0 :=
  (by decide +kernel : ∀ t : Fin grid0.N, win0_2.index t (0 : Fin 3) = (t.val / 15) % 2
    ∧ win0_2.index t (1 : Fin 3) = (t.val / 5) % 3
    ∧ win0_2.index t (2 : Fin 3) = 0)

/-- Where entry (z, r, q) of the [1, 8, 128] block at position t sits in the [2, 24, 128] array: on each axis at
    block index × block size + the coordinate inside the block, that is at (plane of t, 8 · (row group of t) + r, q). -/
private theorem flush_emb_eq (t : Fin cfg0.N) (z : Fin 1) (r : Fin 8) (q : Fin 128) :
    ((cfg0.win 2).blk t).view.emb (ix3 z r q) = ix3 (Cert.Spec.planeOf t.val) (Cert.Spec.rowAt t.val r) q := by
  obtain ⟨e0, e1, e2⟩ := flush_index_facts t
  funext a; apply Fin.ext
  match a with
  | ⟨0, _⟩ => show win0_2.index t (0 : Fin 3) * 1 + 1 * z.val = (t.val / 15) % 2; omega
  | ⟨1, _⟩ => show win0_2.index t (1 : Fin 3) * 8 + 1 * r.val = 8 * ((t.val / 5) % 3) + r.val; omega
  | ⟨2, _⟩ => show win0_2.index t (2 : Fin 3) * 128 + 1 * q.val = q.val; omega

/-- What a writing-back position t writes is its block of the output-plane specification: no block overhangs the
    array, so the whole block is moved; its entry (0, r, q) is the specification at (plane of t, row r of t's group, q)
    by the block's sum over its vocabulary half, and that is the array index under the block's entry (0, r, q). -/
private theorem flush_flushed_eq (c : Dev nD) (h : Cert.Spec.InRange (V m c main_v0)) (t : Fin cfg0.N)
    (hf : (cfg0.win 2).flush t = true) :
    (dats m 0 c).flushed 2 t
      = ((cfg0.win 2).blk t).view.read (Elt Ideal) (Cert.Spec.outG (V m c main_arg0) (V m c main_v0)) := by
  have ht : t.val % 5 = 4 := (flush0_2 t).mp hf
  show (cfg0.win 2).cut (grid0.coords t) ((dats m 0 c).after 2 t) = _
  rw [after0_2]
  funext y
  obtain ⟨z, r, q, rfl⟩ : ∃ (z : Fin 1) (r : Fin 8) (q : Fin 128), y = ix3 z r q :=
    ⟨y 0, y 1, y 2, eq_ix3 (n0 := 1) (n1 := 8) (n2 := 128) y⟩
  obtain rfl : z = 0 := Subsingleton.elim _ _
  rw [View.read_apply]
  refine (outsAt_flush m c t ht h r q).trans ?_
  rw [flush_emb_eq]
  rfl

/-- The output array after the region. -/
theorem planes (c : Dev nD) (h : Cert.Spec.InRange (V m c main_v0)) :
    (dats m 0 c).arrAt 2 cfg0.N = Cert.Spec.outG (V m c main_arg0) (V m c main_v0) := by
  -- every writing-back position writes its block of the specification; the blocks cover the array:
  -- entry (p, n, q) lies in the block of position 15 p + 5 (n / 8) + 4, the fifth tile of row group n / 8 in plane p
  refine (dats m 0 c).arrAt_eq_of_cover 2 (Cert.Spec.outG (V m c main_arg0) (V m c main_v0))
    (flush_flushed_eq m c h) fun i => ?_
  have h0 : (i 0 : Nat) < 2 := (i 0).isLt
  have h1 : (i 1 : Nat) < 24 := (i 1).isLt
  have h2 : (i 2 : Nat) < 128 := (i 2).isLt
  have hN : cfg0.N = 30 := N_0
  obtain ⟨t, ht⟩ : ∃ t : Fin cfg0.N, t.val = 15 * (i 0 : Nat) + 5 * ((i 1 : Nat) / 8) + 4 :=
    ⟨⟨15 * (i 0 : Nat) + 5 * ((i 1 : Nat) / 8) + 4, by rw [hN]; omega⟩, rfl⟩
  obtain ⟨e0, e1, e2⟩ := flush_index_facts t
  refine ⟨t, (flush0_2 t).mpr (by omega), ?_⟩
  show i ∈ ((View.whole main_v1).slice (win0_2.rect t)).set
  rw [View.set_slice_whole, Rect.mem_set_unit]
  intro a
  match a with
  | ⟨0, _⟩ =>
    show win0_2.index t (0 : Fin 3) * 1 ≤ (i 0 : Nat) ∧ (i 0 : Nat) < win0_2.index t (0 : Fin 3) * 1 + 1
    omega
  | ⟨1, _⟩ =>
    show win0_2.index t (1 : Fin 3) * 8 ≤ (i 1 : Nat) ∧ (i 1 : Nat) < win0_2.index t (1 : Fin 3) * 8 + 8
    omega
  | ⟨2, _⟩ =>
    show win0_2.index t (2 : Fin 3) * 128 ≤ (i 2 : Nat) ∧ (i 2 : Nat) < win0_2.index t (2 : Fin 3) * 128 + 128
    omega

end Cert.KernelIdeal.Hand

end
-- ==== Proof.KHostTail.lean ====
/-
  The kernel's host operations after the region, read as one function of the region's output planes:
  plane-sum, the examples' rows, the two contrast halves added, then the loss chain.
-/
import proofs.«402580_j36618891166334_3_alg».proof.Proof.Spec
import proofs.«402580_j36618891166334_3_alg».proof.Proof.Gen.KernelIdeal.Frame
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- The shape relations of the loss chain, as this program proves them. -/
theorem tf : Cert.Spec.TailFacts :=
  ⟨reducesTo_S8x128_S8_d1, h_S_, slices_S8x128_S8x1_0_127, shapeCasts_S8x1_S8, bcast_S_S8, reducesTo_S8_S_d0⟩

/-- The two output planes added: [2, 24, 128] → [24, 128]. -/
def planeSum (o : FVec F S2x24x128 .f32) : FVec F S24x128 .f32 :=
  Host.reduceAdd o (constant S_ .f32 0x00000000#32) reducesTo_S2x24x128_S24x128_d0 h_S_

/-- The examples' rows 0 … 7 of the plane sum. -/
def exK (o : FVec F S2x24x128 .f32) : FVec F S8x128 .f32 :=
  extractStridedSlice S8x128 ![0, 0] (planeSum o) slices_S24x128_S8x128_0_0

/-- Rows 8 … 23 of the plane sum as two halves of eight rows, added. -/
def ctK (o : FVec F S2x24x128 .f32) : FVec F S8x128 .f32 :=
  Host.reduceAdd (shapeCast S2x8x128 (extractStridedSlice S16x128 ![8, 0] (planeSum o) slices_S24x128_S16x128_8_0) shapeCasts_S16x128_S2x8x128)
    (constant S_ .f32 0x00000000#32) reducesTo_S2x8x128_S8x128_d0 h_S_

/-- After the host operations that follow the region, the result holds the loss chain of `exK` and `ctK` of whatever
    the output planes hold. -/
theorem tail_after (W : Valuation τ sig (Elt F)) :
    after (List.flatten [hostOps1, hostOps1_1, hostOps1_2]) W (Proc.devRef .tc main_v27)
      = Cert.Spec.tail tf (exK (W (Proc.devRef .tc main_v1))) (ctK (W (Proc.devRef .tc main_v1))) := by
  simp only [hostOps1, hostOps1_1, hostOps1_2, List.flatten_cons, List.flatten_nil, List.append_nil, List.cons_append, List.nil_append]
  after_results_simp
  rfl

end Cert.KernelIdeal.Hand

end
-- ==== Proof.KPlanes.lean ====
/-
  The host side of the kernel's program on the output planes.  Adding the two planes gives, at row n, the input entry
  at the target (one plane holds it, the other zero); rows 0 … 7 are the examples' gathered values and rows 8 … 23, as two
  halves added, the contrast's.
-/
import proofs.«402580_j36618891166334_3_alg».proof.Proof.KHostTail
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

/-- The plane sum at (n, q): zero plus the sum over the plane axis, which has two coordinates, so plane 0's entry plus
    plane 1's (the zero constant is the extended real 0, and 0 + x = x). -/
private theorem planeSum_apply (o : FVec Ideal S2x24x128 .f32) (n : Fin 24) (q : Fin 128) :
    planeSum (F := Ideal) o (ix2 n q) = o (ix3 (0 : Fin 2) n q) + o (ix3 (1 : Fin 2) n q) := by
  show Ideal.hostReduceAdd reducesTo_S2x24x128_S24x128_d0 o (Ideal.ofBits .f32 0x00000000#32) (ix2 n q) = _
  rw [Ideal.hostReduceAdd_single reducesTo_S2x24x128_S24x128_d0 (by decide : S2x24x128.Reduces [0] S24x128),
    Ideal.ofBits_zero_f32, zero_add]
  show ∑ k : Fin 2, o ((by decide : S2x24x128.Reduces [0] S24x128).lift (ix2 n q) k) = _
  rw [Fin.sum_univ_two]
  have e : ∀ k : Fin 2, (by decide : S2x24x128.Reduces [0] S24x128).lift (ix2 n q) k = ix3 k n q := by
    intro k
    funext a
    apply Fin.ext
    match a with
    | ⟨0, _⟩ => rfl
    | ⟨1, _⟩ => rfl
    | ⟨2, _⟩ => rfl
  rw [e 0, e 1]

/-- The output-plane specification at (h, n, q), its coordinates written out: the entry at the target's column when that
    column lies in half h, zero otherwise. -/
private theorem outG_apply (e : FVec Ideal S24x128x32000 .f32) (tg : IVec S8x128 32) (h : Fin 2) (n : Fin 24) (q : Fin 128) :
    Cert.Spec.outG e tg (ix3 h n q)
      = if (Cert.Spec.colOf (tg (ix2 (⟨n.val % 8, Nat.mod_lt _ (by decide)⟩ : Fin 8) q))).val / 16000 = h.val
        then e (ix3 n q (Cert.Spec.colOf (tg (ix2 (⟨n.val % 8, Nat.mod_lt _ (by decide)⟩ : Fin 8) q)))) else 0 := rfl

/-- The plane sum of the specification at (n, q), for n ≡ r mod 8: the column c is below 32000, so c / 16000 is 0 or 1
    and exactly one plane holds the entry, the other zero; x + 0 = x and 0 + x = x. -/
private theorem planeSum_outG (e : FVec Ideal S24x128x32000 .f32) (tg : IVec S8x128 32) (n : Fin 24) (r : Fin 8) (q : Fin 128)
    (hr : n.val % 8 = r.val) :
    planeSum (F := Ideal) (Cert.Spec.outG e tg) (ix2 n q) = e (ix3 n q (Cert.Spec.colOf (tg (ix2 r q)))) := by
  rw [planeSum_apply, outG_apply, outG_apply]
  have hn : (⟨n.val % 8, Nat.mod_lt _ (by decide)⟩ : Fin 8) = r := Fin.ext hr
  rw [hn]
  generalize Cert.Spec.colOf (tg (ix2 r q)) = c
  have hc : c.val < 32000 := c.isLt
  show ((if c.val / 16000 = 0 then e (ix3 n q c) else 0) + if c.val / 16000 = 1 then e (ix3 n q c) else 0) = _
  by_cases h0 : c.val / 16000 = 0
  · have h1 : ¬ c.val / 16000 = 1 := by omega
    rw [if_pos h0, if_neg h1, add_zero]
  · have h1 : c.val / 16000 = 1 := by omega
    rw [if_neg h0, if_pos h1, zero_add]

/-- The examples' rows at (r, q): the slice from row 0 reads the plane sum at row 8 · 0 + r. -/
private theorem exK_apply (o : FVec Ideal S2x24x128 .f32) (r : Fin 8) (q : Fin 128) :
    exK (F := Ideal) o (ix2 r q) = planeSum (F := Ideal) o (ix2 (Cert.Spec.rowOf 0 r) q) := by
  unfold exK
  exact slice2_axis0_apply 0 (planeSum (F := Ideal) o) slices_S24x128_S8x128_0_0 r q (Cert.Spec.rowOf 0 r)
    (by show 8 * 0 + r.val = 0 + r.val; omega)

/-- Rows 0 … 7 of the plane sum of the output-plane specification are the examples' gathered values. -/
theorem exK_outG (e : FVec Ideal S24x128x32000 .f32) (tg : IVec S8x128 32) :
    exK (F := Ideal) (Cert.Spec.outG e tg) = Cert.Spec.exG e tg := by
  funext j
  obtain ⟨r, q, rfl⟩ : ∃ (r : Fin 8) (q : Fin 128), j = ix2 r q := ⟨j 0, j 1, eq_ix2 j⟩
  rw [exK_apply, planeSum_outG e tg (Cert.Spec.rowOf 0 r) r q (by show (8 * 0 + r.val) % 8 = r.val; omega)]
  rfl

/-- The slice from row 8 (sixteen rows) recast as [2, 8, 128], read at (k, r, q): the same row-major position is
    (8 k + r, q) of the slice, which is row 8 + (8 k + r) of the operand. -/
private theorem cast_slice_apply (P : FVec Ideal S24x128 .f32) (k : Fin 2) (r : Fin 8) (q : Fin 128) (n : Fin 24)
    (hn : n.val = 8 + (8 * k.val + r.val)) :
    shapeCast S2x8x128 (extractStridedSlice S16x128 ![8, 0] P slices_S24x128_S16x128_8_0) shapeCasts_S16x128_S2x8x128 (ix3 k r q)
      = P (ix2 n q) := by
  refine (shapeCast_apply _ shapeCasts_S16x128_S2x8x128 (ix3 k r q) (ix2 (⟨8 * k.val + r.val, by omega⟩ : Fin 16) q) ?_).trans ?_
  · rw [Shape.rowMajor_val_two, Shape.rowMajor_val_three]
    show (8 * k.val + r.val) * 128 + q.val = (k.val * 8 + r.val) * 128 + q.val
    omega
  · exact slice2_axis0_apply 8 P slices_S24x128_S16x128_8_0 _ q n hn

/-- The contrast's rows at (r, q): zero plus the sum over the two halves, which read the plane sum at rows 8 + r and
    16 + r. -/
private theorem ctK_apply (o : FVec Ideal S2x24x128 .f32) (r : Fin 8) (q : Fin 128) :
    ctK (F := Ideal) o (ix2 r q)
      = planeSum (F := Ideal) o (ix2 (Cert.Spec.rowOf 1 r) q) + planeSum (F := Ideal) o (ix2 (Cert.Spec.rowOf 2 r) q) := by
  show Ideal.hostReduceAdd reducesTo_S2x8x128_S8x128_d0
      (shapeCast S2x8x128 (extractStridedSlice S16x128 ![8, 0] (planeSum (F := Ideal) o) slices_S24x128_S16x128_8_0) shapeCasts_S16x128_S2x8x128)
      (Ideal.ofBits .f32 0x00000000#32) (ix2 r q) = _
  rw [Ideal.hostReduceAdd_single reducesTo_S2x8x128_S8x128_d0 (by decide : S2x8x128.Reduces [0] S8x128),
    Ideal.ofBits_zero_f32, zero_add]
  refine (Fin.sum_univ_two _).trans ?_
  have e : ∀ k : Fin 2, (by decide : S2x8x128.Reduces [0] S8x128).lift (ix2 r q) k = ix3 k r q := by
    intro k
    funext a
    apply Fin.ext
    match a with
    | ⟨0, _⟩ => rfl
    | ⟨1, _⟩ => rfl
    | ⟨2, _⟩ => rfl
  rw [e 0, e 1]
  rw [cast_slice_apply _ 0 r q (Cert.Spec.rowOf 1 r) (by show 8 * 1 + r.val = 8 + (8 * 0 + r.val); omega),
    cast_slice_apply _ 1 r q (Cert.Spec.rowOf 2 r) (by show 8 * 2 + r.val = 8 + (8 * 1 + r.val); omega)]

/-- Rows 8 … 23 of the plane sum, as two halves added, are the contrast's gathered values. -/
theorem ctK_outG (e : FVec Ideal S24x128x32000 .f32) (tg : IVec S8x128 32) :
    ctK (F := Ideal) (Cert.Spec.outG e tg) = Cert.Spec.ctG e tg := by
  funext j
  obtain ⟨r, q, rfl⟩ : ∃ (r : Fin 8) (q : Fin 128), j = ix2 r q := ⟨j 0, j 1, eq_ix2 j⟩
  rw [ctK_apply,
    planeSum_outG e tg (Cert.Spec.rowOf 1 r) r q (by show (8 * 1 + r.val) % 8 = r.val; omega),
    planeSum_outG e tg (Cert.Spec.rowOf 2 r) r q (by show (8 * 2 + r.val) % 8 = r.val; omega)]
  rfl

end Cert.KernelIdeal.Hand

end
-- ==== Proof.KHostPre.lean ====
/-
  The host operations before the region clamp the targets to [0, 31999]: `minimum 31999 (maximum 0 w)`, signed.
  A word that is below 32000 as an unsigned word is non-negative and at most 31999 as a signed word, so both steps
  return it: the region finds the targets as launched.
-/
import proofs.«402580_j36618891166334_3_alg».proof.Proof.Spec
import proofs.«402580_j36618891166334_3_alg».proof.Proof.Gen.KernelIdeal.Frame
import Idealize.ShloMosaic.Lib.StableHlo.Run
import Idealize.ShloMosaic.Lib.StableHlo.Predicate

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)
open Idealize.ShloMosaic.StableHlo

/-- The clamp of a word already in [0, 31999] is the word. -/
theorem clamp_word (w : BitVec 32) (h : w.toNat < 32000) : IntOp.minsi (31999#32) (IntOp.maxsi (0#32) w) = w := by
  have hti : w.toInt = w.toNat := Predicate.toInt_eq_toNat_of_lt (by omega)
  have h0 : (0#32 : BitVec 32).toInt = 0 := by decide
  have h1 : (31999#32 : BitVec 32).toInt = 31999 := by decide
  have hmax : IntOp.maxsi (0#32) w = w := by
    unfold IntOp.maxsi
    have hn : ¬ (w.slt 0#32) = true := by
      simp only [BitVec.slt, hti, h0, decide_eq_true_eq]; omega
    rw [if_neg hn]
  rw [hmax]
  unfold IntOp.minsi
  have hn : ¬ ((31999#32 : BitVec 32).slt w) = true := by
    simp only [BitVec.slt, hti, h1, decide_eq_true_eq]; omega
  rw [if_neg hn]

variable {F : FTy → Type} [FloatOps F]
variable (m : (ℓ : Loc nD τ sig) → Buf (Elt F) ℓ)

/-- The clamped targets the region stages, as the host operations compute them. -/
theorem V_main_v0_term (c : Dev nD) :
    (V m c main_v0 : IVec S8x128 32)
      = minsi (broadcastInDim S8x128 ![] bcast_S_S8x128 (id (constantI S_ 32 31999#32)))
          (maxsi (broadcastInDim S8x128 ![] bcast_S_S8x128 (id (constantI S_ 32 0#32))) (m ((c : Thread nD τ).loc main_arg1))) := by
  dsimp only [V, V0]
  simp only [hostOps0, hostOps0_1, List.flatten_cons, List.flatten_nil, List.append_nil, List.cons_append, List.nil_append]
  after_results
  rfl

/-- The clamped targets the region stages are the launched targets, when those are in range. -/
theorem V_main_v0 (c : Dev nD) (h : Cert.Spec.InRange (m ((c : Thread nD τ).loc main_arg1))) :
    V m c main_v0 = m ((c : Thread nD τ).loc main_arg1) := by
  refine (V_main_v0_term m c).trans ?_
  funext j
  have e0 : broadcastInDim S8x128 ![] bcast_S_S8x128 (id (constantI S_ 32 0#32)) j = 0#32 := rfl
  have e1 : broadcastInDim S8x128 ![] bcast_S_S8x128 (id (constantI S_ 32 31999#32)) j = 31999#32 := rfl
  show IntOp.minsi _ (IntOp.maxsi _ _) = _
  rw [e0, e1]
  exact clamp_word _ (h j)

end Cert.KernelIdeal.Hand

end
-- ==== Proof.KRun.lean ====
/-
  The kernel program's run, read back at the ideal instance: for targets in range the result is the loss chain of
  the specification's two gathered arrays, and the arguments end as launched.  The region's output array is the
  output-plane specification of the inputs as the region finds them (the input array untouched, the targets clamped,
  which changes nothing in range); the host operations after the region add the planes, split the rows and apply the chain.
-/
import proofs.«402580_j36618891166334_3_alg».proof.Proof.KFlush
import proofs.«402580_j36618891166334_3_alg».proof.Proof.KPlanes
import proofs.«402580_j36618891166334_3_alg».proof.Proof.KHostPre
import proofs.«402580_j36618891166334_3_alg».proof.Proof.KHostTail

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)
open Idealize.ShloMosaic.StableHlo

variable (m : (ℓ : Loc nD τ sig) → Buf (Elt Ideal) ℓ) (ρ : Dev nD → PrngReg)

theorem run (hin : ∀ c : Dev nD, Cert.Spec.InRange (m ((c : Thread nD τ).loc main_arg1))) :
    θ_run defs (onTc (τ := τ) (main (F := Ideal))) ⟨m, fun _ => 0, ρ⟩ fun r => ∀ c : Dev nD,
      r.2.mem ((c.tc : Thread nD τ).loc main_v27)
          = Cert.Spec.tail tf (Cert.Spec.exG (m ((c.tc : Thread nD τ).loc main_arg0)) (m ((c.tc : Thread nD τ).loc main_arg1)))
              (Cert.Spec.ctG (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (run_main m ρ)
  have hv0 := V_main_v0 m c (hin c)
  have hin' : Cert.Spec.InRange (V m c main_v0) := by rw [hv0]; exact hin c
  refine ⟨?_, ?_, ?_⟩
  · refine ((h c).2 main_v27 (Pipeline.mem_restRefs_of main_v27 (by decide) (by decide))).trans ?_
    unfold Pipeline.afterTail₀
    rw [tail_after]
    have hO : Pipeline.withArrays (cfgs 0).spec c (V0 m c) (fun w => (dats m 0 c).arrAt w (cfgs 0).N) (Proc.devRef .tc main_v1)
        = (dats m 0 c).arrAt 2 cfg0.N := Pipeline.withArrays_arr spec0 launch0.win.arr_inj c _ _ 2
    rw [hO, planes m c hin', exK_outG, ctK_outG, V_main_arg0, hv0]
  · exact ((h c).1 0).trans (((dats m 0 c).arrAt_in 0 rfl _).trans ((A_eq m c 0).trans (V_main_arg0 m c)))
  · exact ((h c).2 main_arg1 (Pipeline.mem_restRefs_of main_arg1 (by decide) (by decide))).trans (W_main_arg1 m (dats m) c)

end Cert.KernelIdeal.Hand

end
-- ==== Proof.RefFns.lean ====
/-
  The reference's host operations before the loss chain, as pure functions of the two inputs: the segment ids
  `(8 + k) mod 8`, the contrast (rows 8 … 23 added into eight segments), and jnp's `take_along_axis` along the
  vocabulary axis (a negative index wrapped once by +32000, then read where it lies in [0, 31999], NaN elsewhere).
  Each is the composition of the printed operations, in their order.
-/
import proofs.«402580_j36618891166334_3_alg».proof.Proof.Spec
import proofs.«402580_j36618891166334_3_alg».proof.Proof.Gen.ReferenceIdeal

noncomputable section

namespace Cert.ReferenceIdeal.Hand

open Cert.ReferenceIdeal Cert.ReferenceIdeal.Gen Idealize.ShloMosaic

variable {F : FTy → Type} [FloatOps F]

/-- The shape relations of the loss chain, as this program proves them. -/
theorem tf : Cert.Spec.TailFacts :=
  ⟨reducesTo_S8x128_S8_d1, h_S_, slices_S8x128_S8x1_0_127, shapeCasts_S8x1_S8, bcast_S_S8, reducesTo_S8_S_d0⟩

/-- jnp's `remainder(8 + iota 16, 8)`: the truncated remainder, moved by the divisor where its sign differs from the
    divisor's (the divisor itself replaced by 1 if it were 0). -/
def segIds : IVec S16 32 :=
  let x : IVec S16 32 := addi (broadcastInDim S16 ![] bcast_S_S16 (constantI S_ 32 8#32)) (iotaInDim S16 32 0)
  let d0 : IVec S_ 32 := id (constantI S_ 32 8#32)
  let d : IVec S_ 32 := select (cmpi .eq d0 (constantI S_ 32 0#32)) (constantI S_ 32 1#32) d0
  let r : IVec S16 32 := Host.remsi x (broadcastInDim S16 ![] bcast_S_S16 d)
  let nz : IVec S16 1 := cmpi .ne r (broadcastInDim S16 ![] bcast_S_S16 (constantI S_ 32 0#32))
  let rneg : IVec S16 1 := cmpi .slt r (broadcastInDim S16 ![] bcast_S_S16 (constantI S_ 32 0#32))
  let dneg : IVec S16 1 := broadcastInDim S16 ![] bcast_S_S16 (cmpi .slt d (constantI S_ 32 0#32))
  select (andi (cmpi .ne rneg dneg) nz) (addi r (broadcastInDim S16 ![] bcast_S_S16 d)) r

/-- The contrast: rows 8 … 23 scatter-added, row 8 + k into segment `segIds k`, over zeros. -/
def contrast (e : FVec F S24x128x32000 .f32) : FVec F S8x128x32000 .f32 :=
  Host.scatterAdd scatter_S8x128x32000_S16x1_S16x128x32000_12_0_0_1
    (broadcastInDim S8x128x32000 ![] bcast_S_S8x128x32000 (constant S_ .f32 0x00000000#32))
    (broadcastInDim S16x1 ![0] bcast_S16_S16x1_0 segIds)
    (extractStridedSlice S16x128x32000 ![8, 0, 0] e slices_S24x128x32000_S16x128x32000_8_0_0)

/-- jnp's `take_along_axis(x, i, axis=2)` at its default (fill) mode. -/
def takeAlong (x : FVec F S8x128x32000 .f32) (i : IVec S8x128x1 32) : FVec F S8x128x1 .f32 :=
  let wrapped : IVec S8x128x1 32 :=
    select (cmpi .slt i (broadcastInDim S8x128x1 ![] bcast_S_S8x128x1 (constantI S_ 32 0#32)))
      (addi i (broadcastInDim S8x128x1 ![] bcast_S_S8x128x1 (constantI S_ 32 32000#32))) i
  let i4 : IVec S8x128x1x1 32 := shapeCast S8x128x1x1 wrapped shapeCasts_S8x128x1_S8x128x1x1
  let lo : IVec S8x128x1x1 1 := cmpi .sge i4 (broadcastInDim S8x128x1x1 ![] bcast_S_S8x128x1x1 (constantI S_ 32 0#32))
  let hi : IVec S8x128x1x1 1 := cmpi .sle i4 (broadcastInDim S8x128x1x1 ![0, 1, 2, 3] bcast_S1x1x1x1_S8x128x1x1_0_1_2_3
      (broadcastInDim S1x1x1x1 ![3] bcast_S1_S1x1x1x1_3 (constantI S1 32 31999#32)))
  let ok : IVec S8x128x1 1 := Host.reduce IntOp.andi (andi lo hi) (constantI S_ 1 1#1) reducesTo_S8x128x1x1_S8x128x1_d3 h_S_
  select ok (Host.gather gather_S8x128x32000_S8x128x1x1_S8x128x1_n_2_01_01_2_3_111 x i4)
    (broadcastInDim S8x128x1 ![] bcast_S_S8x128x1 (constant S_ .f32 0x7FC00000#32))

/-- The targets as a column of start indices. -/
def idxCol (tg : IVec S8x128 32) : IVec S8x128x1 32 := broadcastInDim S8x128x1 ![0, 1] bcast_S8x128_S8x128x1_0_1 tg

/-- The examples' gathered values, as the reference computes them. -/
def exR (e : FVec F S24x128x32000 .f32) (tg : IVec S8x128 32) : FVec F S8x128 .f32 :=
  shapeCast S8x128 (takeAlong (extractStridedSlice S8x128x32000 ![0, 0, 0] e slices_S24x128x32000_S8x128x32000_0_0_0) (idxCol tg))
    shapeCasts_S8x128x1_S8x128

/-- The contrast's gathered values, as the reference computes them. -/
def ctR (e : FVec F S24x128x32000 .f32) (tg : IVec S8x128 32) : FVec F S8x128 .f32 :=
  shapeCast S8x128 (takeAlong (contrast e) (idxCol tg)) shapeCasts_S8x128x1_S8x128

end Cert.ReferenceIdeal.Hand

end
-- ==== Proof.RefRun.lean ====
/-
  The reference program's run, read back: @main as one straight line of host operations (the outlined functions'
  bodies listed at their calls), and after it the result at the loss chain of the reference's two gathered arrays.
-/
import proofs.«402580_j36618891166334_3_alg».proof.Proof.RefFns
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations before the loss chain, in order, each outlined function's operations listed at its call over that
    call's buffers: the two slices; the segment ids `(8 + k) mod 8` (jnp's remainder: the divisor guarded against zero by
    a select, the truncated remainder, its sign correction); the scatter-add of rows 8 … 23 over zeros; the targets as a
    column of indices; and twice `take_along_axis` (the index wrapped, the bounds test, the gather, NaN outside) with
    its reshape to [8, 128]. -/
private abbrev opsA : List (HloOp τ sig (Elt F)) :=
  [ StableHlo.unary main_arg0 main_v0 ((extractStridedSlice S8x128x32000 ![0, 0, 0] · slices_S24x128x32000_S8x128x32000_0_0_0) : (⟨S24x128x32000, .f32⟩ : BufTy).Contents (Elt F) → (⟨S8x128x32000, .f32⟩ : BufTy).Contents (Elt F)),
    StableHlo.unary main_arg0 main_v1 ((extractStridedSlice S16x128x32000 ![8, 0, 0] · slices_S24x128x32000_S16x128x32000_8_0_0) : (⟨S24x128x32000, .f32⟩ : BufTy).Contents (Elt F) → (⟨S16x128x32000, .f32⟩ : BufTy).Contents (Elt F)),
    StableHlo.nullary main_v2 (iotaInDim S16 32 0),
    StableHlo.nullary main_c (constantI S_ 32 8#32),
    StableHlo.unary main_c main_v3 (broadcastInDim S16 ![] bcast_S_S16 : (⟨S_, .i32⟩ : BufTy).Contents (Elt F) → (⟨S16, .i32⟩ : BufTy).Contents (Elt F)),
    StableHlo.binary main_v3 main_v2 main_v4 (addi : (⟨S16, .i32⟩ : BufTy).Contents (Elt F) → (⟨S16, .i32⟩ : BufTy).Contents (Elt F) → (⟨S16, .i32⟩ : BufTy).Contents (Elt F)),
    StableHlo.nullary main_c_0 (constantI S_ 32 8#32),
    StableHlo.TRef.unary (StableHlo.TRef.of main_c_0 : StableHlo.TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S16 ![] bcast_S_S16),
    StableHlo.TRef.binary (StableHlo.TRef.of main_v4 : StableHlo.TRef sig ⟨S16, .i32⟩) main_call0.v3 main_call0.v4 Host.remsi,
    StableHlo.TRef.nullary main_call0.c_1 (constantI S_ 32 0#32),
    StableHlo.TRef.unary main_call0.c_1 main_call0.v5 (broadcastInDim S16 ![] bcast_S_S16),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S16 ![] bcast_S_S16),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S16 ![] bcast_S_S16),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S16 ![] bcast_S_S16),
    StableHlo.TRef.binary main_call0.v4 main_call0.v13 main_call0.v14 addi,
    StableHlo.TRef.ternary main_call0.v12 main_call0.v14 main_call0.v4 main_call0.v15 select,
    StableHlo.nullary main_cst (constant S_ .f32 0x00000000#32),
    StableHlo.unary main_cst main_v6 (broadcastInDim S8x128x32000 ![] bcast_S_S8x128x32000 : (⟨S_, .f32⟩ : BufTy).Contents (Elt F) → (⟨S8x128x32000, .f32⟩ : BufTy).Contents (Elt F)),
    StableHlo.unary main_v5 main_v7 (broadcastInDim S16x1 ![0] bcast_S16_S16x1_0 : (⟨S16, .i32⟩ : BufTy).Contents (Elt F) → (⟨S16x1, .i32⟩ : BufTy).Contents (Elt F)),
    StableHlo.ternary main_v6 main_v7 main_v1 main_v8 ((fun x i u => Host.scatterAdd scatter_S8x128x32000_S16x1_S16x128x32000_12_0_0_1 x i u) : (⟨S8x128x32000, .f32⟩ : BufTy).Contents (Elt F) → (⟨S16x1, .i32⟩ : BufTy).Contents (Elt F) → (⟨S16x128x32000, .f32⟩ : BufTy).Contents (Elt F) → (⟨S8x128x32000, .f32⟩ : BufTy).Contents (Elt F)),
    StableHlo.unary main_arg1 main_v9 (broadcastInDim S8x128x1 ![0, 1] bcast_S8x128_S8x128x1_0_1 : (⟨S8x128, .i32⟩ : BufTy).Contents (Elt F) → (⟨S8x128x1, .i32⟩ : BufTy).Contents (Elt F)),
    StableHlo.TRef.nullary main_call1.c (constantI S_ 32 0#32),
    StableHlo.TRef.unary main_call1.c main_call1.v0 (broadcastInDim S8x128x1 ![] bcast_S_S8x128x1),
    StableHlo.TRef.binary (StableHlo.TRef.of main_v9 : StableHlo.TRef sig ⟨S8x128x1, .i32⟩) main_call1.v0 main_call1.v1 (cmpi .slt),
    StableHlo.TRef.nullary main_call1.c_0 (constantI S_ 32 32000#32),
    StableHlo.TRef.unary main_call1.c_0 main_call1.v2 (broadcastInDim S8x128x1 ![] bcast_S_S8x128x1),
    StableHlo.TRef.binary (StableHlo.TRef.of main_v9 : StableHlo.TRef sig ⟨S8x128x1, .i32⟩) main_call1.v2 main_call1.v3 addi,
    StableHlo.TRef.ternary main_call1.v1 main_call1.v3 (StableHlo.TRef.of main_v9 : StableHlo.TRef sig ⟨S8x128x1, .i32⟩) main_call1.v4 select,
    StableHlo.TRef.reshape main_call1.v4 main_call1.v5 rfl shapeCasts_S8x128x1_S8x128x1x1,
    StableHlo.TRef.nullary main_call1.c_1 (constantI S1 32 31999#32),
    StableHlo.TRef.nullary main_call1.c_2 (constantI S_ 32 0#32),
    StableHlo.TRef.unary main_call1.c_2 main_call1.v6 (broadcastInDim S8x128x1x1 ![] bcast_S_S8x128x1x1),
    StableHlo.TRef.binary main_call1.v5 main_call1.v6 main_call1.v7 (cmpi .sge),
    StableHlo.TRef.unary main_call1.c_1 main_call1.v8 (broadcastInDim S1x1x1x1 ![3] bcast_S1_S1x1x1x1_3),
    StableHlo.TRef.unary main_call1.v8 main_call1.v9 (broadcastInDim S8x128x1x1 ![0, 1, 2, 3] bcast_S1x1x1x1_S8x128x1x1_0_1_2_3),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S8x128x1x1_S8x128x1_d3 h_S_),
    StableHlo.TRef.binary (StableHlo.TRef.of main_v0 : StableHlo.TRef sig ⟨S8x128x32000, .f32⟩) main_call1.v5 main_call1.v13 (fun x i => Host.gather gather_S8x128x32000_S8x128x1x1_S8x128x1_n_2_01_01_2_3_111 x i),
    StableHlo.TRef.nullary main_call1.cst (constant S_ .f32 0x7FC00000#32),
    StableHlo.TRef.unary main_call1.cst main_call1.v14 (broadcastInDim S8x128x1 ![] bcast_S_S8x128x1),
    StableHlo.TRef.ternary main_call1.v12 main_call1.v13 main_call1.v14 main_call1.v15 select,
    StableHlo.reshape main_v10 main_v11 rfl shapeCasts_S8x128x1_S8x128,
    StableHlo.TRef.nullary main_call2.c (constantI S_ 32 0#32),
    StableHlo.TRef.unary main_call2.c main_call2.v0 (broadcastInDim S8x128x1 ![] bcast_S_S8x128x1),
    StableHlo.TRef.binary (StableHlo.TRef.of main_v9 : StableHlo.TRef sig ⟨S8x128x1, .i32⟩) main_call2.v0 main_call2.v1 (cmpi .slt),
    StableHlo.TRef.nullary main_call2.c_0 (constantI S_ 32 32000#32),
    StableHlo.TRef.unary main_call2.c_0 main_call2.v2 (broadcastInDim S8x128x1 ![] bcast_S_S8x128x1),
    StableHlo.TRef.binary (StableHlo.TRef.of main_v9 : StableHlo.TRef sig ⟨S8x128x1, .i32⟩) main_call2.v2 main_call2.v3 addi,
    StableHlo.TRef.ternary main_call2.v1 main_call2.v3 (StableHlo.TRef.of main_v9 : StableHlo.TRef sig ⟨S8x128x1, .i32⟩) main_call2.v4 select,
    StableHlo.TRef.reshape main_call2.v4 main_call2.v5 rfl shapeCasts_S8x128x1_S8x128x1x1,
    StableHlo.TRef.nullary main_call2.c_1 (constantI S1 32 31999#32),
    StableHlo.TRef.nullary main_call2.c_2 (constantI S_ 32 0#32),
    StableHlo.TRef.unary main_call2.c_2 main_call2.v6 (broadcastInDim S8x128x1x1 ![] bcast_S_S8x128x1x1),
    StableHlo.TRef.binary main_call2.v5 main_call2.v6 main_call2.v7 (cmpi .sge),
    StableHlo.TRef.unary main_call2.c_1 main_call2.v8 (broadcastInDim S1x1x1x1 ![3] bcast_S1_S1x1x1x1_3),
    StableHlo.TRef.unary main_call2.v8 main_call2.v9 (broadcastInDim S8x128x1x1 ![0, 1, 2, 3] bcast_S1x1x1x1_S8x128x1x1_0_1_2_3),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S8x128x1x1_S8x128x1_d3 h_S_),
    StableHlo.TRef.binary (StableHlo.TRef.of main_v8 : StableHlo.TRef sig ⟨S8x128x32000, .f32⟩) main_call2.v5 main_call2.v13 (fun x i => Host.gather gather_S8x128x32000_S8x128x1x1_S8x128x1_n_2_01_01_2_3_111 x i),
    StableHlo.TRef.nullary main_call2.cst (constant S_ .f32 0x7FC00000#32),
    StableHlo.TRef.unary main_call2.cst main_call2.v14 (broadcastInDim S8x128x1 ![] bcast_S_S8x128x1),
    StableHlo.TRef.ternary main_call2.v12 main_call2.v13 main_call2.v14 main_call2.v15 select,
    StableHlo.reshape main_v12 main_v13 rfl shapeCasts_S8x128x1_S8x128 ]

/-- The loss chain's operations, in order, from `tanh` of the examples' gathered array to the final division by 8. -/
private abbrev opsB : List (HloOp τ sig (Elt F)) :=
  [ StableHlo.unary main_v11 main_v14 (Host.tanh : (⟨S8x128, .f32⟩ : BufTy).Contents (Elt F) → (⟨S8x128, .f32⟩ : BufTy).Contents (Elt F)),
    StableHlo.unary main_v14 main_v15 (Host.log : (⟨S8x128, .f32⟩ : BufTy).Contents (Elt F) → (⟨S8x128, .f32⟩ : BufTy).Contents (Elt F)),
    StableHlo.nullary main_cst_1 (constant S_ .f32 0x00000000#32),
    StableHlo.binary main_v15 main_cst_1 main_v16 ((fun x v => Host.reduceAdd x v reducesTo_S8x128_S8_d1 h_S_) : (⟨S8x128, .f32⟩ : BufTy).Contents (Elt F) → (⟨S_, .f32⟩ : BufTy).Contents (Elt F) → (⟨S8, .f32⟩ : BufTy).Contents (Elt F)),
    StableHlo.binary main_v11 main_v13 main_v17 (Host.divf : (⟨S8x128, .f32⟩ : BufTy).Contents (Elt F) → (⟨S8x128, .f32⟩ : BufTy).Contents (Elt F) → (⟨S8x128, .f32⟩ : BufTy).Contents (Elt F)),
    StableHlo.unary main_v17 main_v18 (Host.tanh : (⟨S8x128, .f32⟩ : BufTy).Contents (Elt F) → (⟨S8x128, .f32⟩ : BufTy).Contents (Elt F)),
    StableHlo.unary main_v18 main_v19 (Host.log : (⟨S8x128, .f32⟩ : BufTy).Contents (Elt F) → (⟨S8x128, .f32⟩ : BufTy).Contents (Elt F)),
    StableHlo.nullary main_cst_2 (constant S_ .f32 0x00000000#32),
    StableHlo.binary main_v19 main_cst_2 main_v20 ((fun x v => Host.reduceAdd x v reducesTo_S8x128_S8_d1 h_S_) : (⟨S8x128, .f32⟩ : BufTy).Contents (Elt F) → (⟨S_, .f32⟩ : BufTy).Contents (Elt F) → (⟨S8, .f32⟩ : BufTy).Contents (Elt F)),
    StableHlo.unary main_v13 main_v21 ((extractStridedSlice S8x1 ![0, 127] · slices_S8x128_S8x1_0_127) : (⟨S8x128, .f32⟩ : BufTy).Contents (Elt F) → (⟨S8x1, .f32⟩ : BufTy).Contents (Elt F)),
    StableHlo.reshape main_v21 main_v22 rfl shapeCasts_S8x1_S8,
    StableHlo.unary main_v22 main_v23 (Host.log : (⟨S8, .f32⟩ : BufTy).Contents (Elt F) → (⟨S8, .f32⟩ : BufTy).Contents (Elt F)),
    StableHlo.unary main_v23 main_v24 (Host.tanh : (⟨S8, .f32⟩ : BufTy).Contents (Elt F) → (⟨S8, .f32⟩ : BufTy).Contents (Elt F)),
    StableHlo.nullary main_cst_3 (constant S_ .f32 0x00000000#32),
    StableHlo.unary main_cst_3 main_v25 (broadcastInDim S8 ![] bcast_S_S8 : (⟨S_, .f32⟩ : BufTy).Contents (Elt F) → (⟨S8, .f32⟩ : BufTy).Contents (Elt F)),
    StableHlo.binary main_v20 main_v25 main_v26 (cmpf .olt : (⟨S8, .f32⟩ : BufTy).Contents (Elt F) → (⟨S8, .f32⟩ : BufTy).Contents (Elt F) → (⟨S8, .i1⟩ : BufTy).Contents (Elt F)),
    StableHlo.unary main_v16 main_v27 (Host.negf : (⟨S8, .f32⟩ : BufTy).Contents (Elt F) → (⟨S8, .f32⟩ : BufTy).Contents (Elt F)),
    StableHlo.nullary main_cst_4 (constant S_ .f32 0x3D4CCCCD#32),
    StableHlo.unary main_cst_4 main_v28 (broadcastInDim S8 ![] bcast_S_S8 : (⟨S_, .f32⟩ : BufTy).Contents (Elt F) → (⟨S8, .f32⟩ : BufTy).Contents (Elt F)),
    StableHlo.binary main_v28 main_v24 main_v29 (mulf : (⟨S8, .f32⟩ : BufTy).Contents (Elt F) → (⟨S8, .f32⟩ : BufTy).Contents (Elt F) → (⟨S8, .f32⟩ : BufTy).Contents (Elt F)),
    StableHlo.binary main_v27 main_v29 main_v30 (subf : (⟨S8, .f32⟩ : BufTy).Contents (Elt F) → (⟨S8, .f32⟩ : BufTy).Contents (Elt F) → (⟨S8, .f32⟩ : BufTy).Contents (Elt F)),
    StableHlo.unary main_v16 main_v31 (Host.negf : (⟨S8, .f32⟩ : BufTy).Contents (Elt F) → (⟨S8, .f32⟩ : BufTy).Contents (Elt F)),
    StableHlo.TRef.ternary (StableHlo.TRef.of main_v26 : StableHlo.TRef sig ⟨S8, .i1⟩) (StableHlo.TRef.of main_v30 : StableHlo.TRef sig ⟨S8, .f32⟩) (StableHlo.TRef.of main_v31 : StableHlo.TRef sig ⟨S8, .f32⟩) main_call3.v0 select,
    StableHlo.nullary main_cst_5 (constant S_ .f32 0x00000000#32),
    StableHlo.binary main_v32 main_cst_5 main_v33 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    StableHlo.nullary main_cst_6 (constant S_ .f32 0x41000000#32),
    StableHlo.binary main_v33 main_cst_6 main_v34 (Host.divf : (⟨S_, .f32⟩ : BufTy).Contents (Elt F) → (⟨S_, .f32⟩ : BufTy).Contents (Elt F) → (⟨S_, .f32⟩ : BufTy).Contents (Elt F)) ]

/-- @main's operations, in order. -/
private abbrev ops : List (HloOp τ sig (Elt F)) := opsA ++ opsB

/-- @main is that straight line: with the outlined functions' definitions unfolded at their calls and the records at
    their fields, both sides are the same chain of host steps up to the associativity of sequencing, which holds by
    computation. -/
private theorem main_eq (c : Dev nD) : main (F := F) c = seq ops := by
  chain_rfl

/-- The signature scopes no buffer and no semaphore. -/
private theorem scopedRefs_eq : (Finset.univ.filter fun b : Ref sig .tc => b.isScoped) = ∅ := by decide
private theorem scopedSems_eq : (Finset.univ.filter fun sm : SemLoc sig => sm.isScoped .tc) = ∅ := by decide

/-- Every operation before the loss chain touches TensorCore buffers only. -/
private theorem opsA_sub : (opsA : List (HloOp τ sig (Elt F))).Forall fun op => op.bufs ⊆ tcRefs τ sig :=
  ⟨unary_bufs_sub .., unary_bufs_sub .., nullary_bufs_sub .., nullary_bufs_sub .., unary_bufs_sub .., binary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    unary_bufs_sub .., ternary_bufs_sub .., unary_bufs_sub .., nullary_bufs_sub .., unary_bufs_sub .., binary_bufs_sub ..,
    nullary_bufs_sub .., unary_bufs_sub .., binary_bufs_sub .., ternary_bufs_sub .., reshape_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., nullary_bufs_sub .., unary_bufs_sub ..,
    ternary_bufs_sub .., reshape_bufs_sub .., nullary_bufs_sub .., unary_bufs_sub .., binary_bufs_sub .., nullary_bufs_sub ..,
    unary_bufs_sub .., binary_bufs_sub .., ternary_bufs_sub .., reshape_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., nullary_bufs_sub .., unary_bufs_sub .., ternary_bufs_sub ..,
    reshape_bufs_sub ..⟩

/-- Every operation of the loss chain touches TensorCore buffers only. -/
private theorem opsB_sub : (opsB : List (HloOp τ sig (Elt F))).Forall fun op => op.bufs ⊆ tcRefs τ sig :=
  ⟨unary_bufs_sub .., unary_bufs_sub .., nullary_bufs_sub .., binary_bufs_sub .., binary_bufs_sub .., unary_bufs_sub ..,
    unary_bufs_sub .., nullary_bufs_sub .., binary_bufs_sub .., unary_bufs_sub .., reshape_bufs_sub .., unary_bufs_sub ..,
    unary_bufs_sub .., nullary_bufs_sub .., unary_bufs_sub .., binary_bufs_sub .., unary_bufs_sub .., nullary_bufs_sub ..,
    unary_bufs_sub .., binary_bufs_sub .., binary_bufs_sub .., unary_bufs_sub .., ternary_bufs_sub .., nullary_bufs_sub ..,
    binary_bufs_sub .., nullary_bufs_sub .., binary_bufs_sub ..⟩

private theorem ops_sub : (ops : List (HloOp τ sig (Elt F))).Forall fun op => op.bufs ⊆ tcRefs τ sig :=
  List.forall_append.2 ⟨opsA_sub, opsB_sub⟩

/-- Every operation determines its results (none allocates a buffer). -/
private theorem opsA_fresh : ∀ op ∈ (opsA : List (HloOp τ sig (Elt F))), op.fresh = ∅ := by
  intro _ h; (repeat (cases h with | head => rfl | tail _ h => ?_)); exact nomatch h

private theorem opsB_fresh : ∀ op ∈ (opsB : List (HloOp τ sig (Elt F))), op.fresh = ∅ := by
  intro _ h; (repeat (cases h with | head => rfl | tail _ h => ?_)); exact nomatch h

private theorem ops_fresh : ∀ op ∈ (ops : List (HloOp τ sig (Elt F))), op.fresh = ∅ := fun op h =>
  (List.mem_append.1 h).elim (opsA_fresh op) (opsB_fresh op)

/-- The contents after two lines in a row are the second line's, from the first line's. -/
private theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

section Results

-- The equations of this section hold whatever a reduction, the gather, the scatter-add and the remainder compute:
-- these five are kept folded.
attribute [local irreducible] Host.reduce Host.gather Host.scatterAdd Host.reduceAdd Host.remsi

/-- From ANY contents, the loss chain leaves at its result the chain `tail` of the two gathered arrays it starts from:
    each operation's result is its function of its operands' contents, composed in the printed order. -/
private theorem tail_eq (W : Valuation τ sig (Elt F)) :
    after opsB W (main_v34 : DevRef τ sig)
      = Cert.Spec.tail tf (W (main_v11 : DevRef τ sig)) (W (main_v13 : DevRef τ sig)) := by
  after_results_simp
  rfl

/-- The examples' gathered array after the first line: `exR` of the two arguments (the slice of rows 0 … 7, the
    targets' column, `take_along_axis`, the reshape). -/
private theorem ex_eq (V : Valuation τ sig (Elt F)) :
    after opsA V (main_v11 : DevRef τ sig) = exR (V (main_arg0 : DevRef τ sig)) (V (main_arg1 : DevRef τ sig)) := by
  after_results_simp
  rfl

/-- The contrast's gathered array after the first line: `ctR` of the two arguments (the segment ids, the scatter-add
    of rows 8 … 23 over zeros, the targets' column, `take_along_axis`, the reshape). -/
private theorem ct_eq (V : Valuation τ sig (Elt F)) :
    after opsA V (main_v13 : DevRef τ sig) = ctR (V (main_arg0 : DevRef τ sig)) (V (main_arg1 : DevRef τ sig)) := by
  after_results_simp
  rfl

/-- No operation writes an argument: each keeps its contents through either line. -/
private theorem argA0_eq (V : Valuation τ sig (Elt F)) :
    after opsA V (main_arg0 : DevRef τ sig) = V (main_arg0 : DevRef τ sig) := by
  after_results_simp
private theorem argA1_eq (V : Valuation τ sig (Elt F)) :
    after opsA V (main_arg1 : DevRef τ sig) = V (main_arg1 : DevRef τ sig) := by
  after_results_simp
private theorem argB0_eq (V : Valuation τ sig (Elt F)) :
    after opsB V (main_arg0 : DevRef τ sig) = V (main_arg0 : DevRef τ sig) := by
  after_results_simp
private theorem argB1_eq (V : Valuation τ sig (Elt F)) :
    after opsB V (main_arg1 : DevRef τ sig) = V (main_arg1 : DevRef τ sig) := by
  after_results_simp

end Results

/-- The whole line at its result: the loss chain, read from the contents the first line leaves, of the two gathered
    arrays the first line computes from the arguments. -/
private theorem out_eq (V : Valuation τ sig (Elt F)) :
    after ops V (main_v34 : DevRef τ sig)
      = Cert.Spec.tail tf (exR (V (main_arg0 : DevRef τ sig)) (V (main_arg1 : DevRef τ sig)))
          (ctR (V (main_arg0 : DevRef τ sig)) (V (main_arg1 : DevRef τ sig))) := by
  rw [show (ops : List (HloOp τ sig (Elt F))) = opsA ++ opsB from rfl, after_app, tail_eq, ex_eq, ct_eq]

private theorem arg0_eq (V : Valuation τ sig (Elt F)) :
    after ops V (main_arg0 : DevRef τ sig) = V (main_arg0 : DevRef τ sig) := by
  rw [show (ops : List (HloOp τ sig (Elt F))) = opsA ++ opsB from rfl, after_app, argB0_eq, argA0_eq]

private theorem arg1_eq (V : Valuation τ sig (Elt F)) :
    after ops V (main_arg1 : DevRef τ sig) = V (main_arg1 : DevRef τ sig) := by
  rw [show (ops : List (HloOp τ sig (Elt F))) = opsA ++ opsB from rfl, after_app, argB1_eq, argA1_eq]

/-- On every device, from any memory with zero counters: every weakly fair execution of @main terminates with the result
    at the loss chain of `exR` and `ctR` of the launched arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34)
          = Cert.Spec.tail tf (exR (m ((c.tc : Thread nD τ).loc main_arg0)) (m ((c.tc : Thread nD τ).loc main_arg1)))
              (ctR (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  exact (θ_run defs _ _).mono (fun _ h c => ⟨(h c main_v34).trans (out_eq (launchContents m c)),
      (h c main_arg0).trans (arg0_eq (launchContents m c)),
      (h c main_arg1).trans (arg1_eq (launchContents m c))⟩)
    (run_seq scopedRefs_eq scopedSems_eq defs main (fun _ => ops) main_eq (fun _ => ops_sub) m ρ (fun _ => ops_fresh))

end Cert.ReferenceIdeal.Hand

end
-- ==== Proof.RefGather.lean ====
/-
  The reference's two gathered arrays, entry by entry, for targets in range.  An in-range target is not negative, so
  it is not wrapped, and it passes the bounds test, so the gather's value is kept: `take_along_axis` reads the operand
  at the target column.  The segment ids are `k mod 8`, so the scatter-add puts rows 8 + r and 16 + r, and nothing
  else, on segment r of the zero array.
-/
import proofs.«402580_j36618891166334_3_alg».proof.Proof.RefFns
import Idealize.ShloMosaic.PureOps.Ideal.Laws
import Idealize.ShloMosaic.Lib.ValueIdx
import Idealize.ShloMosaic.Lib.Pipeline.Value
import Idealize.ShloMosaic.Lib.StableHlo.Predicate

noncomputable section

namespace Cert.ReferenceIdeal.Hand

open Cert.ReferenceIdeal Cert.ReferenceIdeal.Gen Idealize.ShloMosaic Idealize.ShloMosaic.ValueIdx

/-! ## Words: an in-range word is not negative, and passes both bounds -/

open Idealize.ShloMosaic.StableHlo.Predicate in
/-- A word below 32000 is not negative read signed. -/
private theorem not_slt_zero (w : BitVec 32) (hw : w.toNat < 32000) : IntOp.cmpi .slt w 0#32 = 0#1 := by
  refine eq_zero_of_ne_one (fun h => ?_)
  rw [slt_iff_toNat (by omega) (by decide)] at h
  simp at h

open Idealize.ShloMosaic.StableHlo.Predicate in
/-- A word below 32000 is at least 0 read signed. -/
private theorem sge_zero (w : BitVec 32) (hw : w.toNat < 32000) : IntOp.cmpi .sge w 0#32 = 1#1 := by
  rw [sge_iff_toNat (by omega) (by decide)]
  simp

open Idealize.ShloMosaic.StableHlo.Predicate in
/-- A word below 32000 is at most 31999 read signed. -/
private theorem sle_top (w : BitVec 32) (hw : w.toNat < 32000) : IntOp.cmpi .sle w 31999#32 = 1#1 := by
  rw [sle_iff_toNat (by omega) (by decide)]
  show w.toNat ≤ 31999
  omega

open Idealize.ShloMosaic.StableHlo.Predicate in
/-- A word below 32000 reads the same signed and unsigned. -/
private theorem toInt_toNat_small (w : BitVec 32) (hw : w.toNat < 32000) : w.toInt.toNat = w.toNat := by
  rw [toInt_eq_toNat_of_lt (by omega)]
  rfl

/-! ## The reshapes and the column of targets, read at an index -/

/-- The targets as a column read, at (r, q, 0), the target at (r, q). -/
private theorem idxCol_apply (tg : IVec S8x128 32) (r : Fin 8) (q : Fin 128) :
    idxCol tg (ix3 r q (0 : Fin 1)) = tg (ix2 r q) := by
  unfold idxCol
  refine broadcastInDim_apply _ _ _ _ _ (fun a => ?_)
  match a with
  | ⟨0, _⟩ => rfl
  | ⟨1, _⟩ => rfl

/-- [8,128,1] → [8,128,1,1]: the same row-major position. -/
private theorem cast4_apply (w : IVec S8x128x1 32) (r : Fin 8) (q : Fin 128) :
    shapeCast S8x128x1x1 w shapeCasts_S8x128x1_S8x128x1x1 (ix4 r q (0 : Fin 1) (0 : Fin 1)) = w (ix3 r q (0 : Fin 1)) := by
  refine shapeCast_apply _ _ _ _ ?_
  rw [Shape.rowMajor_val_three, Shape.rowMajor_val_four]
  show (r.val * 128 + q.val) * 1 + 0 = ((r.val * 128 + q.val) * 1 + 0) * 1 + 0
  omega

/-- [8,128,1] → [8,128]: the same row-major position. -/
private theorem cast2_apply (w : FVec Ideal S8x128x1 .f32) (r : Fin 8) (q : Fin 128) :
    shapeCast S8x128 w shapeCasts_S8x128x1_S8x128 (ix2 r q) = w (ix3 r q (0 : Fin 1)) := by
  refine shapeCast_apply _ _ _ _ ?_
  rw [Shape.rowMajor_val_three, Shape.rowMajor_val_two]
  show (r.val * 128 + q.val) * 1 + 0 = r.val * 128 + q.val
  omega

/-! ## The bounds test: a conjunction over a trailing axis of extent one -/

/-- A left fold by the one-bit conjunction from 1 over entries all 1 is 1. -/
private theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self), show IntOp.andi 1#1 1#1 = 1#1 from by decide]
    exact foldl_andi_one f l (fun n hn => h n (List.mem_cons_of_mem _ hn))

/-- An index of the [8,128,1,1] array that drops (axis 3 removed) to (r, q, 0) is (r, q, 0, 0). -/
private theorem eq_of_drop (i : S8x128x1x1.Idx) (r : Fin 8) (q : Fin 128)
    (h : reducesTo_S8x128x1x1_S8x128x1_d3.drop i = ix3 r q (0 : Fin 1)) : i = ix4 r q (0 : Fin 1) (0 : Fin 1) := by
  funext a
  match a with
  | ⟨0, _⟩ => exact Fin.ext (congrArg (fun j : S8x128x1.Idx => (j 0).val) h)
  | ⟨1, _⟩ => exact Fin.ext (congrArg (fun j : S8x128x1.Idx => (j 1).val) h)
  | ⟨2, _⟩ => exact Subsingleton.elim (α := Fin 1) _ _
  | ⟨3, _⟩ => exact Subsingleton.elim (α := Fin 1) _ _

/-- The conjunction over the trailing unit axis, from 1, is 1 where its one entry is 1. -/
private theorem reduce_and_one (m : IVec S8x128x1x1 1) (r : Fin 8) (q : Fin 128)
    (hm : m (ix4 r q (0 : Fin 1) (0 : Fin 1)) = 1#1) :
    Host.reduce IntOp.andi m (constantI S_ 1 1#1) reducesTo_S8x128x1x1_S8x128x1_d3 h_S_ (ix3 r q (0 : Fin 1)) = 1#1 := by
  rw [Host.reduce_eq_foldl]
  refine foldl_andi_one m _ (fun n hn => ?_)
  rw [List.mem_filter] at hn
  have := eq_of_drop n r q (by simpa using hn.2)
  rw [this]; exact hm

/-! ## The gather: batch coordinates (r, q), the start on the vocabulary axis -/

private abbrev gd := gather_S8x128x32000_S8x128x1x1_S8x128x1_n_2_01_01_2_3_111

/-- The gather at (r, q, 0) with an in-range start reads the operand at (r, q, start). -/
private theorem gather_apply (x : FVec Ideal S8x128x32000 .f32) (i4 : IVec S8x128x1x1 32) (r : Fin 8) (q : Fin 128)
    (c : Fin 32000) (hc : (i4 (ix4 r q (0 : Fin 1) (0 : Fin 1))).toInt.toNat = c.val) :
    Host.gather gd x i4 (ix3 r q (0 : Fin 1)) = x (ix3 r q c) := by
  unfold Host.gather
  refine congrArg x ?_
  funext a
  refine Fin.ext ?_
  show gd.start (ix3 r q (0 : Fin 1)) i4 a + gd.batchCoord (ix3 r q (0 : Fin 1)) a + gd.offCoord (ix3 r q (0 : Fin 1)) a = _
  match a with
  | ⟨0, _⟩ =>
    show _ = r.val
    have h0 : gd.start (ix3 r q (0 : Fin 1)) i4 ⟨0, by decide⟩ = 0 := rfl
    have h1 : gd.batchCoord (ix3 r q (0 : Fin 1)) ⟨0, by decide⟩ = r.val := rfl
    have h2 : gd.offCoord (ix3 r q (0 : Fin 1)) ⟨0, by decide⟩ = 0 := rfl
    rw [h0, h1, h2]; omega
  | ⟨1, _⟩ =>
    show _ = q.val
    have h0 : gd.start (ix3 r q (0 : Fin 1)) i4 ⟨1, by decide⟩ = 0 := rfl
    have h1 : gd.batchCoord (ix3 r q (0 : Fin 1)) ⟨1, by decide⟩ = q.val := rfl
    have h2 : gd.offCoord (ix3 r q (0 : Fin 1)) ⟨1, by decide⟩ = 0 := rfl
    rw [h0, h1, h2]; omega
  | ⟨2, _⟩ =>
    show _ = c.val
    have h1 : gd.batchCoord (ix3 r q (0 : Fin 1)) ⟨2, by decide⟩ = 0 := rfl
    have h2 : gd.offCoord (ix3 r q (0 : Fin 1)) ⟨2, by decide⟩ = 0 := rfl
    have h3 : gd.start (ix3 r q (0 : Fin 1)) i4 ⟨2, by decide⟩ = min (i4 (ix4 r q (0 : Fin 1) (0 : Fin 1))).toInt.toNat (32000 - 1) := by
      unfold GatherDims.start
      rw [dif_pos (show (⟨2, by decide⟩ : Fin S8x128x32000.rank) ∈ gd.startIndexMap from List.mem_singleton.mpr rfl)]
      have hsi : gd.siIdx (ix3 r q (0 : Fin 1)) ⟨List.idxOf (⟨2, by decide⟩ : Fin S8x128x32000.rank) gd.startIndexMap,
          List.idxOf_lt_length_iff.2 (List.mem_singleton.mpr rfl)⟩ = ix4 r q (0 : Fin 1) (0 : Fin 1) := by
        funext b; refine Fin.ext ?_
        match b with
        | ⟨0, _⟩ => rfl
        | ⟨1, _⟩ => rfl
        | ⟨2, _⟩ => rfl
        | ⟨3, _⟩ => rfl
      rw [hsi]
      rfl
    rw [h1, h2, h3, hc]
    have := c.isLt
    omega

/-! ## `take_along_axis` at an in-range column -/

/-- The index wrapped once: a negative word moved up by the axis length. -/
private def wrapOf (i : IVec S8x128x1 32) : IVec S8x128x1 32 :=
  select (cmpi .slt i (broadcastInDim S8x128x1 ![] bcast_S_S8x128x1 (constantI S_ 32 0#32)))
    (addi i (broadcastInDim S8x128x1 ![] bcast_S_S8x128x1 (constantI S_ 32 32000#32))) i

/-- The wrapped index as a column of start indices. -/
private def startOf (i : IVec S8x128x1 32) : IVec S8x128x1x1 32 :=
  shapeCast S8x128x1x1 (wrapOf i) shapeCasts_S8x128x1_S8x128x1x1

/-- The two bounds tests, conjoined: the start lies in [0, 31999]. -/
private def inOf (i : IVec S8x128x1 32) : IVec S8x128x1x1 1 :=
  andi (cmpi .sge (startOf i) (broadcastInDim S8x128x1x1 ![] bcast_S_S8x128x1x1 (constantI S_ 32 0#32)))
    (cmpi .sle (startOf i) (broadcastInDim S8x128x1x1 ![0, 1, 2, 3] bcast_S1x1x1x1_S8x128x1x1_0_1_2_3
      (broadcastInDim S1x1x1x1 ![3] bcast_S1_S1x1x1x1_3 (constantI S1 32 31999#32))))

/-- `take_along_axis` is the select, on the reduced bounds test, between the gather and the fill value. -/
private theorem takeAlong_eq (x : FVec Ideal S8x128x32000 .f32) (i : IVec S8x128x1 32) :
    takeAlong (F := Ideal) x i = select
      (Host.reduce IntOp.andi (inOf i) (constantI S_ 1 1#1) reducesTo_S8x128x1x1_S8x128x1_d3 h_S_)
      (Host.gather gd x (startOf i))
      (broadcastInDim S8x128x1 ![] bcast_S_S8x128x1 (constant S_ .f32 0x7FC00000#32)) := rfl

/-- An in-range word is not wrapped. -/
private theorem wrapOf_apply (i : IVec S8x128x1 32) (j : S8x128x1.Idx) (hi : (i j).toNat < 32000) : wrapOf i j = i j := by
  unfold wrapOf
  rw [select_apply]
  show Scalar.select (IntOp.cmpi .slt (i j) 0#32) _ _ = _
  rw [not_slt_zero _ hi, select_zero]

/-- The start index at (r, q, 0, 0) is the in-range word at (r, q, 0). -/
private theorem startOf_apply (i : IVec S8x128x1 32) (r : Fin 8) (q : Fin 128) (hi : (i (ix3 r q (0 : Fin 1))).toNat < 32000) :
    startOf i (ix4 r q (0 : Fin 1) (0 : Fin 1)) = i (ix3 r q (0 : Fin 1)) := by
  unfold startOf
  rw [cast4_apply, wrapOf_apply i _ hi]

/-- An in-range start passes the bounds test. -/
private theorem inOf_apply (i : IVec S8x128x1 32) (r : Fin 8) (q : Fin 128) (hi : (i (ix3 r q (0 : Fin 1))).toNat < 32000) :
    inOf i (ix4 r q (0 : Fin 1) (0 : Fin 1)) = 1#1 := by
  show IntOp.andi (IntOp.cmpi .sge (startOf i (ix4 r q (0 : Fin 1) (0 : Fin 1))) 0#32)
    (IntOp.cmpi .sle (startOf i (ix4 r q (0 : Fin 1) (0 : Fin 1))) 31999#32) = 1#1
  rw [startOf_apply i r q hi, sge_zero _ hi, sle_top _ hi]
  decide

/-- `take_along_axis` at (r, q, 0), the index word there in range, reads the operand at that column. -/
private theorem takeAlong_apply (x : FVec Ideal S8x128x32000 .f32) (i : IVec S8x128x1 32) (r : Fin 8) (q : Fin 128)
    (c : Fin 32000) (hc : (i (ix3 r q (0 : Fin 1))).toNat = c.val) :
    takeAlong (F := Ideal) x i (ix3 r q (0 : Fin 1)) = x (ix3 r q c) := by
  have hi : (i (ix3 r q (0 : Fin 1))).toNat < 32000 := by rw [hc]; exact c.isLt
  rw [takeAlong_eq, select_apply, reduce_and_one _ r q (inOf_apply i r q hi), select_one]
  refine gather_apply x _ r q c ?_
  rw [startOf_apply i r q hi, toInt_toNat_small _ hi, hc]

/-! ## The contrast: rows 8 + r and 16 + r, and nothing else, land on segment r -/

/-- The segment id of update row k, read signed, is k mod 8 (sixteen closed words). -/
private theorem segIds_toInt (k : Fin 16) : (segIds (ix1 k)).toInt = ((k.val % 8 : Nat) : Int) := by
  revert k; decide

private abbrev sd := scatter_S8x128x32000_S16x1_S16x128x32000_12_0_0_1
private abbrev segCol : IVec S16x1 32 := broadcastInDim S16x1 ![0] bcast_S16_S16x1_0 segIds

/-- On the scattered axis the start is the row's segment id; the window axes start at 0. -/
private theorem start0 (k : Fin 16) (q : Fin 128) (v : Fin 32000) :
    sd.start (ix3 k q v) segCol ⟨0, by decide⟩ = ((k.val % 8 : Nat) : Int) := by
  rw [← segIds_toInt]
  rfl
private theorem start1 (k : Fin 16) (q : Fin 128) (v : Fin 32000) : sd.start (ix3 k q v) segCol ⟨1, by decide⟩ = 0 := rfl
private theorem start2 (k : Fin 16) (q : Fin 128) (v : Fin 32000) : sd.start (ix3 k q v) segCol ⟨2, by decide⟩ = 0 := rfl
/-- The window coordinate is 0 on the inserted axis and the update's own coordinate on the two window axes. -/
private theorem window0 (k : Fin 16) (q : Fin 128) (v : Fin 32000) : sd.window (ix3 k q v) ⟨0, by decide⟩ = 0 := rfl
private theorem window1 (k : Fin 16) (q : Fin 128) (v : Fin 32000) : sd.window (ix3 k q v) ⟨1, by decide⟩ = q.val := rfl
private theorem window2 (k : Fin 16) (q : Fin 128) (v : Fin 32000) : sd.window (ix3 k q v) ⟨2, by decide⟩ = v.val := rfl

/-- Update (k, q, v) lands on (k mod 8, q, v). -/
private theorem resultIdx_eq (k : Fin 16) (q : Fin 128) (v : Fin 32000) :
    sd.resultIdx? (ix3 k q v) segCol = some (ix3 (⟨k.val % 8, Nat.mod_lt _ (by decide)⟩ : Fin 8) q v) := by
  have hall : ∀ a, 0 ≤ sd.start (ix3 k q v) segCol a + sd.window (ix3 k q v) a ∧
      sd.start (ix3 k q v) segCol a + sd.window (ix3 k q v) a < S8x128x32000.size a := by
    intro a
    match a with
    | ⟨0, _⟩ =>
      rw [start0, window0]
      show _ ∧ _ < ((8 : Nat) : Int)
      omega
    | ⟨1, _⟩ =>
      rw [start1, window1]
      show _ ∧ _ < ((128 : Nat) : Int)
      have := q.isLt
      omega
    | ⟨2, _⟩ =>
      rw [start2, window2]
      show _ ∧ _ < ((32000 : Nat) : Int)
      have := v.isLt
      omega
  unfold ScatterDims.resultIdx?
  rw [dif_pos hall]
  refine congrArg some ?_
  funext a
  refine Fin.ext ?_
  match a with
  | ⟨0, _⟩ =>
    show (sd.start (ix3 k q v) segCol ⟨0, by decide⟩ + sd.window (ix3 k q v) ⟨0, by decide⟩).toNat = k.val % 8
    rw [start0, window0]; omega
  | ⟨1, _⟩ =>
    show (sd.start (ix3 k q v) segCol ⟨1, by decide⟩ + sd.window (ix3 k q v) ⟨1, by decide⟩).toNat = q.val
    rw [start1, window1]; omega
  | ⟨2, _⟩ =>
    show (sd.start (ix3 k q v) segCol ⟨2, by decide⟩ + sd.window (ix3 k q v) ⟨2, by decide⟩).toNat = v.val
    rw [start2, window2]; omega

/-- The updates landing on (r, q, v) are (r, q, v) and (r + 8, q, v). -/
private theorem landing_set (r : Fin 8) (q : Fin 128) (v : Fin 32000) :
    (Finset.univ.filter fun j : S16x128x32000.Idx => sd.resultIdx? j segCol = some (ix3 r q v))
      = {ix3 (⟨r.val, by omega⟩ : Fin 16) q v, ix3 (⟨r.val + 8, by omega⟩ : Fin 16) q v} := by
  ext j
  rw [Finset.mem_filter, Finset.mem_insert, Finset.mem_singleton]
  obtain ⟨k, q', v', rfl⟩ : ∃ (k : Fin 16) (q' : Fin 128) (v' : Fin 32000), j = ix3 k q' v' := ⟨j 0, j 1, j 2, eq_ix3 j⟩
  rw [resultIdx_eq]
  constructor
  · rintro ⟨_, hj⟩
    have hj' := Option.some.inj hj
    have e0 : k.val % 8 = r.val := congrArg (fun i : S8x128x32000.Idx => (i 0).val) hj'
    have e1 : q' = q := congrArg (fun i : S8x128x32000.Idx => i 1) hj'
    have e2 : v' = v := congrArg (fun i : S8x128x32000.Idx => i 2) hj'
    subst e1 e2
    have hk := k.isLt
    rcases (show k.val = r.val ∨ k.val = r.val + 8 by omega) with h | h
    · left; exact congrArg (fun a : Fin 16 => ix3 a q' v') (Fin.ext h)
    · right; exact congrArg (fun a : Fin 16 => ix3 a q' v') (Fin.ext h)
  · intro h
    refine ⟨Finset.mem_univ _, congrArg some ?_⟩
    have hr := r.isLt
    rcases h with h | h
    · have e0 : k.val = r.val := congrArg (fun i : S16x128x32000.Idx => (i 0).val) h
      have e1 : q' = q := congrArg (fun i : S16x128x32000.Idx => i 1) h
      have e2 : v' = v := congrArg (fun i : S16x128x32000.Idx => i 2) h
      subst e1 e2
      exact congrArg (fun a : Fin 8 => ix3 a q' v') (Fin.ext (by show k.val % 8 = r.val; omega))
    · have e0 : k.val = r.val + 8 := congrArg (fun i : S16x128x32000.Idx => (i 0).val) h
      have e1 : q' = q := congrArg (fun i : S16x128x32000.Idx => i 1) h
      have e2 : v' = v := congrArg (fun i : S16x128x32000.Idx => i 2) h
      subst e1 e2
      exact congrArg (fun a : Fin 8 => ix3 a q' v') (Fin.ext (by show k.val % 8 = r.val; omega))

/-- Rows 8 … 23 of the input, read at (k, q, v): row 8 + k. -/
private theorem rows_apply (e : FVec Ideal S24x128x32000 .f32) (k : Fin 16) (q : Fin 128) (v : Fin 32000) (a : Fin 24)
    (ha : a.val = 8 + k.val) :
    extractStridedSlice S16x128x32000 ![8, 0, 0] e slices_S24x128x32000_S16x128x32000_8_0_0 (ix3 k q v) = e (ix3 a q v) := by
  refine extractStridedSlice_apply _ _ _ _ _ (fun ax => ?_)
  match ax with
  | ⟨0, _⟩ => exact ha
  | ⟨1, _⟩ => exact (Nat.zero_add _).symm
  | ⟨2, _⟩ => exact (Nat.zero_add _).symm

/-- The contrast at (r, q, v): zero, plus rows 8 + r and 16 + r of the input there. -/
private theorem contrast_apply (e : FVec Ideal S24x128x32000 .f32) (r : Fin 8) (q : Fin 128) (v : Fin 32000)
    (a b : Fin 24) (ha : a.val = 8 + r.val) (hb : b.val = 16 + r.val) :
    contrast (F := Ideal) e (ix3 r q v) = e (ix3 a q v) + e (ix3 b q v) := by
  show Ideal.ofBits .f32 0x00000000#32
      + ∑ j ∈ Finset.univ.filter (fun j : S16x128x32000.Idx => sd.resultIdx? j segCol = some (ix3 r q v)),
          extractStridedSlice S16x128x32000 ![8, 0, 0] e slices_S24x128x32000_S16x128x32000_8_0_0 j = _
  rw [landing_set, Ideal.ofBits_zero_f32, zero_add, Finset.sum_pair (by
    intro h
    have : r.val = r.val + 8 := congrArg (fun i : S16x128x32000.Idx => (i 0).val) h
    omega)]
  rw [rows_apply e _ q v a ha, rows_apply e _ q v b (by rw [hb]; show 16 + r.val = 8 + (r.val + 8); omega)]

/-! ## The two gathered arrays -/

/-- An in-range target names its own column. -/
private theorem colOf_val (w : BitVec 32) (hw : w.toNat < 32000) : w.toNat = (Cert.Spec.colOf w).val := by
  show w.toNat = min w.toNat 31999
  omega

/-- The examples' gathered values are the specification's. -/
theorem exR_eq (e : FVec Ideal S24x128x32000 .f32) (tg : IVec S8x128 32) (h : Cert.Spec.InRange tg) :
    exR (F := Ideal) e tg = Cert.Spec.exG e tg := by
  funext j
  obtain ⟨r, q, rfl⟩ : ∃ (r : Fin 8) (q : Fin 128), j = ix2 r q := ⟨j 0, j 1, eq_ix2 j⟩
  have hj : (tg (ix2 r q)).toNat < 32000 := h (ix2 r q)
  unfold exR
  rw [cast2_apply, takeAlong_apply _ _ r q (Cert.Spec.colOf (tg (ix2 r q))) (by rw [idxCol_apply]; exact colOf_val _ hj)]
  show _ = e (ix3 (Cert.Spec.rowOf 0 r) q (Cert.Spec.colOf (tg (ix2 r q))))
  refine extractStridedSlice_apply _ _ _ _ _ (fun ax => ?_)
  match ax with
  | ⟨0, _⟩ => show 8 * 0 + r.val = 0 + r.val; omega
  | ⟨1, _⟩ => exact (Nat.zero_add _).symm
  | ⟨2, _⟩ => exact (Nat.zero_add _).symm

/-- The contrast's gathered values are the specification's. -/
theorem ctR_eq (e : FVec Ideal S24x128x32000 .f32) (tg : IVec S8x128 32) (h : Cert.Spec.InRange tg) :
    ctR (F := Ideal) e tg = Cert.Spec.ctG e tg := by
  funext j
  obtain ⟨r, q, rfl⟩ : ∃ (r : Fin 8) (q : Fin 128), j = ix2 r q := ⟨j 0, j 1, eq_ix2 j⟩
  have hj : (tg (ix2 r q)).toNat < 32000 := h (ix2 r q)
  unfold ctR
  rw [cast2_apply, takeAlong_apply _ _ r q (Cert.Spec.colOf (tg (ix2 r q))) (by rw [idxCol_apply]; exact colOf_val _ hj),
    contrast_apply e r q _ (Cert.Spec.rowOf 1 r) (Cert.Spec.rowOf 2 r)
      (by show 8 * 1 + r.val = 8 + r.val; omega) (by show 8 * 2 + r.val = 16 + r.val; omega)]
  rfl

end Cert.ReferenceIdeal.Hand

end
-- ==== Proof.lean ====
/-
  The certificate's claim, assembled.

  Under the precondition every embedding entry is finite and every target is a column number, 0 ≤ target < 32000.
  Only the second part is used: with the targets in range the kernel's clamp is the identity and the reference's
  `take_along_axis` neither wraps nor fills, so both programs gather `e[8 g + r, t, target[r, t]]` for the three row
  groups g, form `ex` (group 0) and `ct` (group 1 plus group 2) and apply one and the same chain of host
  operations to the pair.  No sum on either side has more than one non-zero term apart from the two-term sum `ct`,
  so nothing needs the entries finite.

  The three frames: the kernel's and its idealization's are the generated frame certificates; the reference's is
  its run, written by hand, with the result forgotten.  The idealization rewrote nothing, so `preserves` is `True`.
-/
import proofs.«402580_j36618891166334_3_alg».proof.Defs
import proofs.«402580_j36618891166334_3_alg».proof.Proof.Gen.Kernel
import proofs.«402580_j36618891166334_3_alg».proof.Proof.Gen.Kernel.Skeleton
import proofs.«402580_j36618891166334_3_alg».proof.Proof.Gen.Kernel.Loops
import proofs.«402580_j36618891166334_3_alg».proof.Proof.Gen.Kernel.Launch
import proofs.«402580_j36618891166334_3_alg».proof.Proof.Gen.Kernel.Points
import proofs.«402580_j36618891166334_3_alg».proof.Proof.Gen.Kernel.Frame
import proofs.«402580_j36618891166334_3_alg».proof.Proof.Gen.KernelIdeal
import proofs.«402580_j36618891166334_3_alg».proof.Proof.Gen.KernelIdeal.Skeleton
import proofs.«402580_j36618891166334_3_alg».proof.Proof.Gen.KernelIdeal.Loops
import proofs.«402580_j36618891166334_3_alg».proof.Proof.Gen.KernelIdeal.Launch
import proofs.«402580_j36618891166334_3_alg».proof.Proof.Gen.KernelIdeal.Points
import proofs.«402580_j36618891166334_3_alg».proof.Proof.Gen.KernelIdeal.Frame
import proofs.«402580_j36618891166334_3_alg».proof.Proof.Gen.ReferenceIdeal
import proofs.«402580_j36618891166334_3_alg».proof.Proof.Gen.Pre_finite_inputs
import proofs.«402580_j36618891166334_3_alg».proof.Proof.PreDecode
import proofs.«402580_j36618891166334_3_alg».proof.Proof.KRun
import proofs.«402580_j36618891166334_3_alg».proof.Proof.RefRun
import proofs.«402580_j36618891166334_3_alg».proof.Proof.RefGather
import Idealize.ShloMosaic.Adequacy
import Idealize.ShloMosaic.Init

noncomputable section

namespace Cert.Proof

open Idealize.ShloMosaic Idealize.SL.Sem

/-- The reference's frame: its run, the result dropped. -/
theorem frame_ref : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Hand.run (F := Ideal) m ρ)

/-- Both idealized programs end at the loss chain of the same two gathered arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hin : ∀ c : Dev Cert.KernelIdeal.nD, Cert.Spec.InRange (m ((c.tc : Thread Cert.KernelIdeal.nD Cert.KernelIdeal.τ).loc Cert.KernelIdeal.main_arg1)) :=
    fun c => Cert.PreDecode.inRange_of_fn _ _ (hpre c)
  refine ⟨fun c => Cert.Spec.tail Cert.KernelIdeal.Hand.tf
      (Cert.Spec.exG (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (Cert.Spec.ctG (m ((c.tc : Thread Cert.KernelIdeal.nD Cert.KernelIdeal.τ).loc Cert.KernelIdeal.main_arg0)) (m ((c.tc : Thread Cert.KernelIdeal.nD Cert.KernelIdeal.τ).loc Cert.KernelIdeal.main_arg1))),
    Cert.KernelIdeal.Hand.run m ρ hin, ?_⟩
  refine (θ_run Cert.ReferenceIdeal.defs _ _).mono (fun _ h c => ?_) (Cert.ReferenceIdeal.Hand.run (F := Ideal) m' ρ')
  obtain ⟨h1, h2, h3⟩ := h c
  refine ⟨h1.trans ?_, h2, h3⟩
  have hin' : Cert.Spec.InRange (m' ((c.tc : Thread Cert.ReferenceIdeal.nD Cert.ReferenceIdeal.τ).loc Cert.ReferenceIdeal.main_arg1)) := by
    rw [(hagree c).2]; exact hin c
  rw [Cert.ReferenceIdeal.Hand.exR_eq _ _ hin', Cert.ReferenceIdeal.Hand.ctR_eq _ _ hin', (hagree c).1, (hagree c).2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
